-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x4096 : Shape := ⟨2, ![11008, 4096]⟩
abbrev S11008 : Shape := ⟨1, ![11008]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S4x2048x4096 .f32) (main_arg1 : FVec F S11008x4096 .f32) (main_arg2 : FVec F S11008 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S11008 .f32 := Host.absf main_arg2
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S4x2048x4096 : Shape := ⟨3, ![4, 2048, 4096]⟩
abbrev S11008x4096 : Shape := ⟨2, ![11008, 4096]⟩
abbrev S11008 : Shape := ⟨1, ![11008]⟩
abbrev S8192x4096 : Shape := ⟨2, ![8192, 4096]⟩
abbrev S256x4096 : Shape := ⟨2, ![256, 4096]⟩
abbrev S256x32x128 : Shape := ⟨3, ![256, 32, 128]⟩
abbrev S256x32 : Shape := ⟨2, ![256, 32]⟩
abbrev S256x32x1 : Shape := ⟨3, ![256, 32, 1]⟩
abbrev S_ : Shape := ⟨0, ![]⟩
abbrev S11264x4096 : Shape := ⟨2, ![11264, 4096]⟩
abbrev S11264 : Shape := ⟨1, ![11264]⟩
abbrev S1x11264 : Shape := ⟨2, ![1, 11264]⟩
abbrev S8192x11264 : Shape := ⟨2, ![8192, 11264]⟩
abbrev S1024x1024 : Shape := ⟨2, ![1024, 1024]⟩
abbrev S1x1024 : Shape := ⟨2, ![1, 1024]⟩
abbrev S8192x11008 : Shape := ⟨2, ![8192, 11008]⟩
abbrev S4x2048x11008 : Shape := ⟨3, ![4, 2048, 11008]⟩

abbrev nBuf : Space → Nat
  | .hbm => 16
  | .vmem => 13
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .f32⟩
  | .hbm, ⟨2, _⟩ => ⟨S11008, .f32⟩
  | .hbm, ⟨3, _⟩ => ⟨S8192x4096, .f32⟩
  | .hbm, ⟨4, _⟩ => ⟨S8192x4096, .bf16⟩
  | .hbm, ⟨5, _⟩ => ⟨S11008x4096, .bf16⟩
  | .hbm, ⟨6, _⟩ => ⟨S_, .i32⟩
  | .hbm, ⟨7, _⟩ => ⟨S_, .bf16⟩
  | .hbm, ⟨8, _⟩ => ⟨S11264x4096, .bf16⟩
  | .hbm, ⟨9, _⟩ => ⟨S_, .i32⟩
  | .hbm, ⟨10, _⟩ => ⟨S_, .f32⟩
  | .hbm, ⟨11, _⟩ => ⟨S11264, .f32⟩
  | .hbm, ⟨12, _⟩ => ⟨S1x11264, .f32⟩
  | .hbm, ⟨13, _⟩ => ⟨S8192x11264, .f32⟩
  | .hbm, ⟨14, _⟩ => ⟨S8192x11008, .f32⟩
  | .hbm, ⟨15, _⟩ => ⟨S4x2048x11008, .f32⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_c_0 : Ref sig .tc := ⟨.hbm, 9, rfl⟩
abbrev main_call1_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨3, ![8, 11, 4], ![false, false, false]⟩

def k1_cond2 (i : grid1.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S4x2048x4096_S8192x4096 : S4x2048x4096.ShapeCasts S8192x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  shapeCasts_S256x4096_S256x32x128 : S256x4096.ShapeCasts S256x32x128
  reduces_S256x32x128_S256x32 : S256x32x128.Reduces [2] S256x32
  shapeCasts_S256x32_S256x32x1 : S256x32.ShapeCasts S256x32x1
  broadcasts_S256x32x1_S256x32x128 : S256x32x1.Broadcasts S256x32x128
  shapeCasts_S256x32x128_S256x4096 : S256x32x128.ShapeCasts S256x4096
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  pads_S11008x4096_S11264x4096_02560_000 : S11008x4096.Pads (![0, 0] : Fin 2 → Nat) ![256, 0] ![0, 0] S11264x4096
  h_S_ : 0 < S_.numel
  pads_S11008_S11264_02560 : S11008.Pads (![0] : Fin 1 → Nat) ![256] ![0] S11264
  shapeCasts_S11264_S1x11264 : S11264.ShapeCasts S1x11264
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  transposes_S1024x1024_p1_0_S1024x1024 : S1024x1024.Transposes [1, 0] S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  slices_S8192x11264_S8192x11008_0_0 : S8192x11264.Slices ![0, 0] S8192x11008
  shapeCasts_S8192x11008_S4x2048x11008 : S8192x11008.ShapeCasts S4x2048x11008
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S8192x4096.size a
  hwx0_1 : ∀ i : grid0.Coords, EltTy.bits .bf16 = 32 ∨ (Rect.block (s := S8192x4096) S256x4096.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x4096.size a
  hwx1_0 : ∀ i : grid1.Coords, EltTy.bits .bf16 = 32 ∨ (Rect.block (s := S8192x4096) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S11264x4096.size a
  hwx1_1 : ∀ i : grid1.Coords, EltTy.bits .bf16 = 32 ∨ (Rect.block (s := S11264x4096) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x11264.size a
  hwx1_2 : ∀ i : grid1.Coords, EltTy.bits .f32 = 32 ∨ (Rect.block (s := S1x11264) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x11264.size a
  hwx1_3 : ∀ i : grid1.Coords, EltTy.bits .f32 = 32 ∨ (Rect.block (s := S8192x11264) S1024x1024.size (cc1_transform_3 i) (hinb1_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S11008x4096 : Shape := ⟨2, ![11008, 4096]⟩
abbrev S11008 : Shape := ⟨1, ![11008]⟩
abbrev S4x2048x32x128 : Shape := ⟨4, ![4, 2048, 32, 128]⟩
abbrev S_ : Shape := ⟨0, ![]⟩
abbrev S4x2048x32 : Shape := ⟨3, ![4, 2048, 32]⟩
abbrev S4x2048x32x1 : Shape := ⟨4, ![4, 2048, 32, 1]⟩
abbrev S4x2048x11008 : Shape := ⟨3, ![4, 2048, 11008]⟩
abbrev S1x1x11008 : Shape := ⟨3, ![1, 1, 11008]⟩

abbrev nBuf : Space → Nat
  | .hbm => 91
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .f32⟩
  | .hbm, ⟨2, _⟩ => ⟨S11008, .f32⟩
  | .hbm, ⟨3, _⟩ => ⟨S4x2048x32x128, .f32⟩
  | .hbm, ⟨4, _⟩ => ⟨S4x2048x32x128, .f32⟩
  | .hbm, ⟨5, _⟩ => ⟨S_, .f32⟩
  | .hbm, ⟨6, _⟩ => ⟨S4x2048x32, .f32⟩
  | .hbm, ⟨7, _⟩ => ⟨S4x2048x32x1, .f32⟩
  | .hbm, ⟨8, _⟩ => ⟨S_, .f32⟩
  | .hbm, ⟨9, _⟩ => ⟨S4x2048x32x1, .f32⟩
  | .hbm, ⟨10, _⟩ => ⟨S4x2048x32x1, .f32⟩
  | .hbm, ⟨11, _⟩ => ⟨S_, .f32⟩
  | .hbm, ⟨12, _⟩ => ⟨S4x2048x32x1, .f32⟩
  | .hbm, ⟨13, _⟩ => ⟨S4x2048x32x1, .f32⟩
  | .hbm, ⟨14, _⟩ => ⟨S_, .f32⟩
  | .hbm, ⟨15, _⟩ => ⟨S4x2048x32x1, .f32⟩
  | .hbm, ⟨16, _⟩ => ⟨S_, .f32⟩
  | .hbm, ⟨17, _⟩ => ⟨S4x2048x32x1, .f32⟩
  | .hbm, ⟨18, _⟩ => ⟨S4x2048x32x1, .i1⟩
  | .hbm, ⟨19, _⟩ => ⟨S_, .f32⟩
  | .hbm, ⟨20, _⟩ => ⟨S4x2048x32x1, .f32⟩
  | .hbm, ⟨21, _⟩ => ⟨S4x2048x32x1, .f32⟩
  | .hbm, ⟨22, _⟩ => ⟨S_, .f32⟩
  | .hbm, ⟨23, _⟩ => ⟨S4x2048x32x1, .f32⟩
  | .hbm, ⟨24, _⟩ => ⟨S4x2048x32x1, .i1⟩
  | .hbm, ⟨25, _⟩ => ⟨S_, .f32⟩
  | .hbm, ⟨26, _⟩ => ⟨S4x2048x32x1, .f32⟩
  | .hbm, ⟨27, _⟩ => ⟨S4x2048x32x1, .f32⟩
  | .hbm, ⟨28, _⟩ => ⟨S_, .f32⟩
  | .hbm, ⟨29, _⟩ => ⟨S4x2048x32x1, .f32⟩
  | .hbm, ⟨30, _⟩ => ⟨S4x2048x32x1, .i1⟩
  | .hbm, ⟨31, _⟩ => ⟨S_, .f32⟩
  | .hbm, ⟨32, _⟩ => ⟨S4x2048x32x1, .f32⟩
  | .hbm, ⟨33, _⟩ => ⟨S4x2048x32x1, .f32⟩
  | .hbm, ⟨34, _⟩ => ⟨S_, .f32⟩
  | .hbm, ⟨35, _⟩ => ⟨S4x2048x32x1, .f32⟩
  | .hbm, ⟨36, _⟩ => ⟨S4x2048x32x1, .i1⟩
  | .hbm, ⟨37, _⟩ => ⟨S_, .f32⟩
  | .hbm, ⟨38, _⟩ => ⟨S4x2048x32x1, .f32⟩
  | .hbm, ⟨39, _⟩ => ⟨S4x2048x32x1, .f32⟩
  | .hbm, ⟨40, _⟩ => ⟨S_, .f32⟩
  | .hbm, ⟨41, _⟩ => ⟨S4x2048x32x1, .f32⟩
  | .hbm, ⟨42, _⟩ => ⟨S4x2048x32x1, .i1⟩
  | .hbm, ⟨43, _⟩ => ⟨S_, .f32⟩
  | .hbm, ⟨44, _⟩ => ⟨S4x2048x32x1, .f32⟩
  | .hbm, ⟨45, _⟩ => ⟨S4x2048x32x1, .f32⟩
  | .hbm, ⟨46, _⟩ => ⟨S4x2048x32x128, .f32⟩
  | .hbm, ⟨47, _⟩ => ⟨S4x2048x32x128, .f32⟩
  | .hbm, ⟨48, _⟩ => ⟨S4x2048x32x128, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S4x2048x32x128, .f32⟩
  | .hbm, ⟨53, _⟩ => ⟨S4x2048x32x128, .f32⟩
  | .hbm, ⟨54, _⟩ => ⟨S_, .f32⟩
  | .hbm, ⟨55, _⟩ => ⟨S4x2048x32x128, .f32⟩
  | .hbm, ⟨56, _⟩ => ⟨S4x2048x32x128, .f32⟩
  | .hbm, ⟨57, _⟩ => ⟨S4x2048x32x128, .f32⟩
  | .hbm, ⟨58, _⟩ => ⟨S4x2048x32x128, .f32⟩
  | .hbm, ⟨59, _⟩ => ⟨S4x2048x32x128, .f32⟩
  | .hbm, ⟨60, _⟩ => ⟨S4x2048x32x128, .f32⟩
  | .hbm, ⟨61, _⟩ => ⟨S_, .f32⟩
  | .hbm, ⟨62, _⟩ => ⟨S4x2048x32, .f32⟩
  | .hbm, ⟨63, _⟩ => ⟨S4x2048x32x1, .f32⟩
  | .hbm, ⟨64, _⟩ => ⟨S_, .f32⟩
  | .hbm, ⟨65, _⟩ => ⟨S4x2048x32x1, .f32⟩
  | .hbm, ⟨66, _⟩ => ⟨S4x2048x32x1, .f32⟩
  | .hbm, ⟨67, _⟩ => ⟨S_, .f32⟩
  | .hbm, ⟨68, _⟩ => ⟨S4x2048x32x1, .f32⟩
  | .hbm, ⟨69, _⟩ => ⟨S4x2048x32x1, .f32⟩
  | .hbm, ⟨70, _⟩ => ⟨S4x2048x32x128, .f32⟩
  | .hbm, ⟨71, _⟩ => ⟨S4x2048x32x128, .f32⟩
  | .hbm, ⟨72, _⟩ => ⟨S4x2048x32x128, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S4x2048x32x128, .f32⟩
  | .hbm, ⟨77, _⟩ => ⟨S4x2048x32x128, .f32⟩
  | .hbm, ⟨78, _⟩ => ⟨S_, .f32⟩
  | .hbm, ⟨79, _⟩ => ⟨S4x2048x32x128, .f32⟩
  | .hbm, ⟨80, _⟩ => ⟨S4x2048x32x128, .f32⟩
  | .hbm, ⟨81, _⟩ => ⟨S4x2048x32x128, .f32⟩
  | .hbm, ⟨82, _⟩ => ⟨S4x2048x32x128, .f32⟩
  | .hbm, ⟨83, _⟩ => ⟨S4x2048x32x128, .f32⟩
  | .hbm, ⟨84, _⟩ => ⟨S4x2048x32x128, .f32⟩
  | .hbm, ⟨85, _⟩ => ⟨S4x2048x32x128, .f32⟩
  | .hbm, ⟨86, _⟩ => ⟨S4x2048x4096, .f32⟩
  | .hbm, ⟨87, _⟩ => ⟨S4x2048x11008, .f32⟩
  | .hbm, ⟨88, _⟩ => ⟨S1x1x11008, .f32⟩
  | .hbm, ⟨89, _⟩ => ⟨S4x2048x11008, .f32⟩
  | .hbm, ⟨90, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_cst_4 : Ref sig .tc := ⟨.hbm, 19, rfl⟩
abbrev main_v11 : Ref sig .tc := ⟨.hbm, 20, rfl⟩
abbrev main_v12 : Ref sig .tc := ⟨.hbm, 21, rfl⟩
abbrev main_cst_5 : Ref sig .tc := ⟨.hbm, 22, rfl⟩
abbrev main_v13 : Ref sig .tc := ⟨.hbm, 23, rfl⟩
abbrev main_v14 : Ref sig .tc := ⟨.hbm, 24, rfl⟩
abbrev main_cst_6 : Ref sig .tc := ⟨.hbm, 25, rfl⟩
abbrev main_v15 : Ref sig .tc := ⟨.hbm, 26, rfl⟩
abbrev main_v16 : Ref sig .tc := ⟨.hbm, 27, rfl⟩
abbrev main_cst_7 : Ref sig .tc := ⟨.hbm, 28, rfl⟩
abbrev main_v17 : Ref sig .tc := ⟨.hbm, 29, rfl⟩
abbrev main_v18 : Ref sig .tc := ⟨.hbm, 30, rfl⟩
abbrev main_cst_8 : Ref sig .tc := ⟨.hbm, 31, rfl⟩
abbrev main_v19 : Ref sig .tc := ⟨.hbm, 32, rfl⟩
abbrev main_v20 : Ref sig .tc := ⟨.hbm, 33, rfl⟩
abbrev main_cst_9 : Ref sig .tc := ⟨.hbm, 34, rfl⟩
abbrev main_v21 : Ref sig .tc := ⟨.hbm, 35, rfl⟩
abbrev main_v22 : Ref sig .tc := ⟨.hbm, 36, rfl⟩
abbrev main_cst_10 : Ref sig .tc := ⟨.hbm, 37, rfl⟩
abbrev main_v23 : Ref sig .tc := ⟨.hbm, 38, rfl⟩
abbrev main_v24 : Ref sig .tc := ⟨.hbm, 39, rfl⟩
abbrev main_cst_11 : Ref sig .tc := ⟨.hbm, 40, rfl⟩
abbrev main_v25 : Ref sig .tc := ⟨.hbm, 41, rfl⟩
abbrev main_v26 : Ref sig .tc := ⟨.hbm, 42, rfl⟩
abbrev main_cst_12 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_13 : Ref sig .tc := ⟨.hbm, 49, rfl⟩
abbrev main_cst_14 : Ref sig .tc := ⟨.hbm, 50, rfl⟩
abbrev main_call6_v0 : Ref sig .tc := ⟨.hbm, 51, rfl⟩
abbrev main_call6_v1 : Ref sig .tc := ⟨.hbm, 52, rfl⟩
abbrev main_call6_v2 : Ref sig .tc := ⟨.hbm, 53, rfl⟩
abbrev main_call6_v3 : Ref sig .tc := ⟨.hbm, 54, rfl⟩
abbrev main_call6_v4 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_15 : Ref sig .tc := ⟨.hbm, 61, rfl⟩
abbrev main_v37 : Ref sig .tc := ⟨.hbm, 62, rfl⟩
abbrev main_v38 : Ref sig .tc := ⟨.hbm, 63, rfl⟩
abbrev main_cst_16 : Ref sig .tc := ⟨.hbm, 64, rfl⟩
abbrev main_v39 : Ref sig .tc := ⟨.hbm, 65, rfl⟩
abbrev main_v40 : Ref sig .tc := ⟨.hbm, 66, rfl⟩
abbrev main_cst_17 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_18 : Ref sig .tc := ⟨.hbm, 73, rfl⟩
abbrev main_cst_19 : Ref sig .tc := ⟨.hbm, 74, rfl⟩
abbrev main_call8_v0 : Ref sig .tc := ⟨.hbm, 75, rfl⟩
abbrev main_call8_v1 : Ref sig .tc := ⟨.hbm, 76, rfl⟩
abbrev main_call8_v2 : Ref sig .tc := ⟨.hbm, 77, rfl⟩
abbrev main_call8_v3 : Ref sig .tc := ⟨.hbm, 78, rfl⟩
abbrev main_call8_v4 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩

abbrev nD : Nat := 1
abbrev τ : Topo := Topo.v7x

variable {F : FTy → Type} [FloatOps F]

class Facts₀ : Prop where
  shapeCasts_S4x2048x4096_S4x2048x32x128 : S4x2048x4096.ShapeCasts S4x2048x32x128
  reducesTo_S4x2048x32x128_S4x2048x32_d3 : S4x2048x32x128.ReducesTo [3] S4x2048x32
  h_S_ : 0 < S_.numel
  bcast_S4x2048x32_S4x2048x32x1_0_1_2 : S4x2048x32.BroadcastsInDim S4x2048x32x1 (![0, 1, 2] : Fin 3 → Fin S4x2048x32x1.rank)
  bcast_S_S4x2048x32x1 : S_.BroadcastsInDim S4x2048x32x1 (![] : Fin 0 → Fin S4x2048x32x1.rank)
  bcast_S4x2048x32x1_S4x2048x32x128_0_1_2_3 : S4x2048x32x1.BroadcastsInDim S4x2048x32x128 (![0, 1, 2, 3] : Fin 4 → Fin S4x2048x32x128.rank)
  bcast_S_S4x2048x32x128 : S_.BroadcastsInDim S4x2048x32x128 (![] : Fin 0 → Fin S4x2048x32x128.rank)
  shapeCasts_S4x2048x32x128_S4x2048x4096 : S4x2048x32x128.ShapeCasts S4x2048x4096
  bcast_S11008_S1x1x11008_2 : S11008.BroadcastsInDim S1x1x11008 (![2] : Fin 1 → Fin S1x1x11008.rank)
  bcast_S1x1x11008_S4x2048x11008_0_1_2 : S1x1x11008.BroadcastsInDim S4x2048x11008 (![0, 1, 2] : Fin 3 → Fin S4x2048x11008.rank)
  dot_S4x2048x4096_S11008x4096_S4x2048x11008_2_1_01_0_n_n_wf : DotDims.WF S4x2048x4096 S11008x4096 S4x2048x11008 [2] [1] [0, 1] [0] [] []

variable [Facts₀]

def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf

class Facts : Prop extends Facts₀ where

variable [Facts]
-- ==== Proof.QuantBody.lean ====
/-
  The first kernel region at one grid point: 256 rows of the activation matrix, each row cut into 32 groups of
  128 entries, every group replaced by its quotient-remainder reconstruction.

  The body loads the whole 256 x 4096 block of its input window, computes, and stores one whole 256 x 4096 block
  into its output window. So after the body the output window's staging buffer holds a function of the input block
  alone (`rebuilt`), the input window's buffer is untouched, and nothing else on the core is read or written.
  The grid has 32 points, point t working on rows 256 t .. 256 t + 255; both windows move one block per point.
  Everything here is stated for any float instance and at any contents `V` of the core's buffers at the region's entry.
-/
import proofs.«109478_j15118284882234_1_alg».proof.Proof.Gen.KernelIdeal.Launch
import proofs.«109478_j15118284882234_1_alg».proof.Proof.Gen.KernelIdeal.Skeleton
import proofs.«109478_j15118284882234_1_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Quant

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at grid point `t`, read off the window's array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 256 x 4096 block: the one rectangle the body loads and stores through. -/
abbrev whole : Rect S256x4096 := Rect.unit (s := S256x4096) ![0, 0] S256x4096.size inb_S256x4096_S256x4096_0_0

/-! ## What the body computes -/

/-- The reconstruction of a 256 x 4096 block: the group maxima give the power-of-two base, the clipped rounded
    quotient and the remainder follow, and the stored value is base * quotient + the dequantised remainder. -/
def rebuilt (x : Vec F S256x4096 .f32) : Vec F S256x4096 .bf16 :=
  k0_pay1 (k0_pay3 x) (k0_pay4 x) (k0_pay5 x)

/-- The output window's staging buffer after the body: its one store, of the reconstruction of what was loaded. -/
def stored (x0 : Vec F S256x4096 .f32) : Vec F S256x4096 .bf16 :=
  View.canon [⟨whole, rebuilt (View.ld x0 whole)⟩]

/-- The one store covers the block. -/
theorem stored_covers (p0 : Vec F S256x4096 .bf16) (y : S256x4096.Idx) :
    ∃ pc ∈ ([⟨whole, p0⟩] : List (View.Piece (Elt F) S256x4096 .bf16)), y ∈ pc.1.set :=
  View.cover_of_tiled [⟨whole, p0⟩] S256x4096.size (by rfl) y

/-! ## The body's run -/

set_option maxHeartbeats 1000000 in
/-- On whole staging memrefs, the input's at contents `x0` and the output's at anything, the body runs to its
    continuation with the input's as it was and the output's at `stored x0`. -/
theorem body_run (c : Dev nD) (E : Set ℕ) (i : grid0.Coords) (arg1 : Memref sig .tc .vmem S256x4096 .f32) (harg1 : arg1.IsWhole)
    (arg2 : Memref sig .tc .vmem S256x4096 .bf16) (harg2 : arg2.IsWhole)
    (x0 : Vec F S256x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (stored x0)) -∗ K ⟨⟩))
      ⊢ wp frame (wpE (defs₀ (F := F)) Variants.none c none) E (cc0__qr_kernel i arg1 harg1 arg2 harg2) K := by
  simp only [cc0__qr_kernel_eq_skeleton]; unfold cc0__qr_kernel_skel
  simp only [k0_part1_eq_skeleton]
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (stored_covers _)

/-! ## The proof data of the region -/

/-- The region's proof data on core `c`: the two arrays as the region finds them; after the body at point `t` the
    input window's buffer still at its block and the output window's at the reconstruction of that block; the invariant
    is the core's other scoped buffers and its generator register, untouched; nothing is owed. -/
def dat (c : Dev nD) : Dat τ (Elt F) Unit ℕ (Pipeline.UD sig nD τ) ℕ cfg0 c where
  A w := V c (Pipeline.arrRef spec0 w)
  after w t := match w with
    | ⟨0, _⟩ => blockAt V c 0 t
    | ⟨1, _⟩ => stored (blockAt V c 0 t)
  Φ _ := Pipeline.ΦA spec0 c
  q _ := fullShare
  owed _ := 0

theorem dat_A (c : Dev nD) (w : Fin cfg0.W) : (dat V c).A w = V c (Pipeline.arrRef spec0 w) := by
  dsimp only [dat]

theorem after_in (c : Dev nD) (t : Fin cfg0.N) : (dat V c).after 0 t = blockAt V c 0 t := by dsimp only [dat]
theorem after_out (c : Dev nD) (t : Fin cfg0.N) : (dat V c).after 1 t = stored (blockAt V c 0 t) := by dsimp only [dat]

/-- The input window is fetched at every point and its blocks tile the array, so when the body runs its current
    staging buffer holds the point's block. -/
theorem before_in (c : Dev nD) (t : Fin cfg0.N) (d) : (dat V c).before 0 t d = blockAt V c 0 t :=
  ((dat V c).before_in_eq_fetched 0 rfl (fun _ => rfl) (fun _ _ _ => rfl)
      (fun t => by rw [after_in]; unfold Dat.blockOf blockAt; rw [dat_A]) t d).trans
    (by unfold Dat.fetched Dat.blockOf blockAt; rw [dat_A]; try rfl)

/-! ## The body obligation -/

/-- What the body is handed at point `t`: the invariant, the core's dues, the two current staging buffers. -/
def pre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d)))

/-- What it hands back. -/
def post (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t))

/-- The body at any point: the input's buffer holds the point's block, so `body_run` applies; the invariant and
    the dues pass through unread. -/
theorem body_at (c : Dev nD) (t : Fin cfg0.N) :
    pre V c t ⊢ wp frame (wpE (defs₀ (F := F)) Variants.none c none) Set.univ (bodyAt0 t) (fun _ => post V c t) := by
  unfold pre post bodyAt0
  simp only [before_in]
  rw [show (dat V c).Φ t.succ = (dat V c).Φ t.castSucc from rfl,
    show (dat V c).owesAt () t.succ = (dat V c).owesAt () t.castSucc from rfl,
    after_in, after_out]
  iintro ⟨HΦ, Ho, ⟨%d0, H0⟩, ⟨%d1, H1⟩⟩
  iapply (body_run c Set.univ (grid0.coords t) _ _ _ _ (blockAt V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation for this region, at every point. -/
theorem body_obligation (c : Dev nD) : BodyObligation (dat (F := F) V c) (defs₀ (F := F)) Variants.none () Set.univ := fun t => by
  rw [bigSep_W0, bigSep_W0]
  exact body_at V c t

end Cert.KernelIdeal.Quant

end
-- ==== Proof.MatmulBody.lean ====
/-
  The second kernel region at one grid point: a 1024 x 1024 tile of the product accumulated along the contraction axis.

  The grid is 8 x 11 x 4: tile row m, tile column n, and the step k along the 4096 contracted positions, k running
  fastest, so point t has k = t % 4. At every step the body adds to a scratch accumulator the product of the
  1024 x 1024 activation tile (m, k) with the TRANSPOSE of the weight tile (n, k); at k = 0 it first resets the
  accumulator to zero; at k = 3 it stores accumulator + bias row into the output tile (m, n). The output window is
  written back only at k = 3 and is idle at the other steps, where its staging buffer is handed back as found.

  The accumulator lives in a scratch buffer that survives from one grid point to the next, so the region's invariant
  says what it holds: after point t, `accAfter t` — the running sum since the last reset.
  Everything here is stated for any float instance and at any contents `V` of the core's buffers at the region's entry.
-/
import proofs.«109478_j15118284882234_1_alg».proof.Proof.Gen.KernelIdeal.Launch
import proofs.«109478_j15118284882234_1_alg».proof.Proof.Gen.KernelIdeal.Skeleton
import proofs.«109478_j15118284882234_1_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Matmul

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at grid point `t`, read off the window's array as the region finds it: the activation tile
    (w = 0), the weight tile (w = 1), the bias row's segment (w = 2), the output tile (w = 3). -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The two tests on the step -/

/-- The first conditional's test, from the grid coordinates: the step along the contraction axis is 0. -/
abbrev isFirst (i : grid1.Coords) : Prop :=
  (Scalar.cmpi .ne (Scalar.extui (Scalar.cmpi .eq (BitVec.ofNat 32 (i 2).val) 0#32)) 0#32) = 1#1
/-- It holds at the points t with t % 4 = 0. -/
theorem isFirst_iff : ∀ t : Fin cfg1.N, isFirst (grid1.coords t) ↔ t.val % 4 = 0 :=
  (by decide +kernel : ∀ t : Fin grid1.N, isFirst (grid1.coords t) ↔ t.val % 4 = 0)

/-- The second conditional's test: the step is 3, the last. -/
abbrev isLast (i : grid1.Coords) : Prop := k1_cond2 i = 1#1
/-- It holds at the points t with t % 4 = 3. -/
theorem isLast_iff : ∀ t : Fin cfg1.N, isLast (grid1.coords t) ↔ t.val % 4 = 3 :=
  (by decide +kernel : ∀ t : Fin grid1.N, isLast (grid1.coords t) ↔ t.val % 4 = 3)

/-- The output window is idle exactly off the last step, and is not written back there. -/
theorem out_idle : ∀ t : Fin cfg1.N, ¬isLast (grid1.coords t) → cfg1.idle 3 (grid1.coords t) = true := by decide +kernel
theorem out_not_flushed : ∀ t : Fin cfg1.N, ¬isLast (grid1.coords t) → (cfg1.win 3).flush t = false := by decide +kernel
theorem out_live : ∀ t : Fin cfg1.N, isLast (grid1.coords t) → cfg1.idle 3 (grid1.coords t) = false := by decide +kernel

/-! ## The body's three runs -/

theorem zeros2 : (![0, 0] : Fin S1024x1024.rank → Nat) = fun _ => 0 := by funext a; fin_cases a <;> rfl
theorem zeros2' : (![0, 0] : Fin S1x1024.rank → Nat) = fun _ => 0 := by funext a; fin_cases a <;> rfl

/-- The accumulator scratch as a memref. -/
abbrev accM : Memref sig .tc .vmem S1024x1024 .f32 := Memref.whole cc1_scratch0

set_option maxHeartbeats 1000000 in
/-- Step 0: whatever the accumulator held, it is reset and then holds zero + this step's product; the other four
    buffers are handed back as they were. -/
theorem run_first (c : Dev nD) (E : Set ℕ) (i : grid1.Coords)
    (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (hf : isFirst i) (hl : ¬isLast i)
    (xa xb : Vec F S1024x1024 .bf16) (xbias : Vec F S1x1024 .f32) (y : Vec F S1024x1024 .f32) (K : PUnit → sProp 𝕄) :
    iprop(owns (c : Thread nD τ) arg3 fullShare xa ∗ owns (c : Thread nD τ) arg4 fullShare xb ∗ owns (c : Thread nD τ) arg5 fullShare xbias
        ∗ owns (c : Thread nD τ) arg6 fullShare y ∗ (∃ d, owns (c : Thread nD τ) arg7 fullShare d)
        ∗ (iprop(owns (c : Thread nD τ) arg3 fullShare xa ∗ owns (c : Thread nD τ) arg4 fullShare xb ∗ owns (c : Thread nD τ) arg5 fullShare xbias
            ∗ owns (c : Thread nD τ) arg6 fullShare y ∗ owns (c : Thread nD τ) arg7 fullShare (k1_pay2 (k1_pay1 (F := F)) xa xb)) -∗ K ⟨⟩))
      ⊢ wp frame (wpE (defs₀ (F := F)) Variants.none c none) E (cc1__mm_kernel i arg3 harg3 arg4 harg4 arg5 harg5 arg6 harg6 arg7 harg7) K := by
  simp only [cc1__mm_kernel_eq_skeleton]; unfold cc1__mm_kernel_skel
  unfold owns
  iintro ⟨⟨%f3, %hf3, H3⟩, ⟨%f4, %hf4, H4⟩, ⟨%f5, %hf5, H5⟩, ⟨%f6, %hf6, H6⟩, ⟨%d7, %f7, -, H7⟩, Hk⟩
  obtain rfl := harg3.eq_unread hf3; obtain rfl := harg4.eq_unread hf4
  sl_exec (disch := first | exact hf | exact hl)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact hf5
    iexact H5
  isplitl [H6]
  · iexists _; isplitr; · ipureintro; exact hf6
    iexact H6
  iexists _; isplitr
  swap; · iexact H7
  ipureintro
  sl_unfold_words
  rw [View.read_writes_eq_canon _ _ _ (fun y => ⟨_, List.mem_cons_self .., View.mem_set_unit_zero zeros2 inb_S1024x1024_S1024x1024_0_0 y⟩),
    View.canon_cons_unit_zero zeros2]
  simp only [View.readAt_eq_ld, harg3.read_unread, harg4.read_unread, View.ld_unit_zero (S := S1024x1024) zeros2]
  exact congrArg (fun s => k1_pay2 s xa xb)
    (View.readCov_unit_zero (S := S1024x1024) arg7.view zeros2 inb_S1024x1024_S1024x1024_0_0 _)

set_option maxHeartbeats 1000000 in
/-- Steps 1 and 2: the accumulator gains this step's product; the other four buffers are handed back as they were. -/
theorem run_middle (c : Dev nD) (E : Set ℕ) (i : grid1.Coords)
    (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (hf : ¬isFirst i) (hl : ¬isLast i)
    (xa xb : Vec F S1024x1024 .bf16) (xbias : Vec F S1x1024 .f32) (y : Vec F S1024x1024 .f32) (acc : Vec F S1024x1024 .f32) (K : PUnit → sProp 𝕄) :
    iprop(owns (c : Thread nD τ) arg3 fullShare xa ∗ owns (c : Thread nD τ) arg4 fullShare xb ∗ owns (c : Thread nD τ) arg5 fullShare xbias
        ∗ owns (c : Thread nD τ) arg6 fullShare y ∗ owns (c : Thread nD τ) arg7 fullShare acc
        ∗ (iprop(owns (c : Thread nD τ) arg3 fullShare xa ∗ owns (c : Thread nD τ) arg4 fullShare xb ∗ owns (c : Thread nD τ) arg5 fullShare xbias
            ∗ owns (c : Thread nD τ) arg6 fullShare y ∗ owns (c : Thread nD τ) arg7 fullShare (k1_pay2 acc xa xb)) -∗ K ⟨⟩))
      ⊢ wp frame (wpE (defs₀ (F := F)) Variants.none c none) E (cc1__mm_kernel i arg3 harg3 arg4 harg4 arg5 harg5 arg6 harg6 arg7 harg7) K := by
  simp only [cc1__mm_kernel_eq_skeleton]; unfold cc1__mm_kernel_skel
  unfold owns
  iintro ⟨⟨%f3, %hf3, H3⟩, ⟨%f4, %hf4, H4⟩, ⟨%f5, %hf5, H5⟩, ⟨%f6, %hf6, H6⟩, ⟨%f7, %hf7, H7⟩, Hk⟩
  obtain rfl := harg3.eq_unread hf3; obtain rfl := harg4.eq_unread hf4; obtain rfl := harg7.eq_unread hf7
  sl_exec (disch := first | exact hf | exact hl)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact hf5
    iexact H5
  isplitl [H6]
  · iexists _; isplitr; · ipureintro; exact hf6
    iexact H6
  iexists _; isplitr
  swap; · iexact H7
  ipureintro
  rw [View.read_writes_eq_canon _ _ _ (fun y => ⟨_, List.mem_singleton_self _, View.mem_set_unit_zero zeros2 inb_S1024x1024_S1024x1024_0_0 y⟩),
    View.canon_unit_zero zeros2]
  simp only [View.readAt_eq_ld, harg7.read_unread, harg3.read_unread, harg4.read_unread, View.ld_unit_zero (S := S1024x1024) zeros2]

set_option maxHeartbeats 1000000 in
/-- Step 3: the accumulator gains this step's product, and the output tile receives the new accumulator plus the
    bias row; the three input buffers are handed back as they were. -/
theorem run_last (c : Dev nD) (E : Set ℕ) (i : grid1.Coords)
    (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (hf : ¬isFirst i) (hl : isLast i)
    (xa xb : Vec F S1024x1024 .bf16) (xbias : Vec F S1x1024 .f32) (acc : Vec F S1024x1024 .f32) (K : PUnit → sProp 𝕄) :
    iprop(owns (c : Thread nD τ) arg3 fullShare xa ∗ owns (c : Thread nD τ) arg4 fullShare xb ∗ owns (c : Thread nD τ) arg5 fullShare xbias
        ∗ (∃ d, owns (c : Thread nD τ) arg6 fullShare d) ∗ owns (c : Thread nD τ) arg7 fullShare acc
        ∗ (iprop(owns (c : Thread nD τ) arg3 fullShare xa ∗ owns (c : Thread nD τ) arg4 fullShare xb ∗ owns (c : Thread nD τ) arg5 fullShare xbias
            ∗ owns (c : Thread nD τ) arg6 fullShare (k1_pay3 (k1_pay2 acc xa xb) xbias) ∗ owns (c : Thread nD τ) arg7 fullShare (k1_pay2 acc xa xb)) -∗ K ⟨⟩))
      ⊢ wp frame (wpE (defs₀ (F := F)) Variants.none c none) E (cc1__mm_kernel i arg3 harg3 arg4 harg4 arg5 harg5 arg6 harg6 arg7 harg7) K := by
  simp only [cc1__mm_kernel_eq_skeleton]; unfold cc1__mm_kernel_skel
  unfold owns
  iintro ⟨⟨%f3, %hf3, H3⟩, ⟨%f4, %hf4, H4⟩, ⟨%f5, %hf5, H5⟩, ⟨%d6, %f6, -, H6⟩, ⟨%f7, %hf7, H7⟩, Hk⟩
  obtain rfl := harg3.eq_unread hf3; obtain rfl := harg4.eq_unread hf4; obtain rfl := harg5.eq_unread hf5; obtain rfl := harg7.eq_unread hf7
  sl_exec (disch := first | exact hf | exact hl)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_words
    rw [View.read_writes_eq_canon _ _ _ (fun y => ⟨_, List.mem_singleton_self _, View.mem_set_unit_zero zeros2 inb_S1024x1024_S1024x1024_0_0 y⟩),
      View.canon_unit_zero zeros2]
    simp only [View.readAt_eq_ld, harg7.read_unread, harg3.read_unread, harg4.read_unread, harg5.read_unread,
      View.ld_unit_zero (S := S1024x1024) zeros2, View.ld_unit_zero (S := S1x1024) zeros2']
    exact congrArg (fun s => k1_pay3 s xbias)
      (View.readCov_unit_zero (S := S1024x1024) arg7.view zeros2 inb_S1024x1024_S1024x1024_0_0 _)
  iexists _; isplitr
  swap; · iexact H7
  ipureintro
  sl_unfold_words
  rw [View.read_writes_eq_canon _ _ _ (fun y => ⟨_, List.mem_singleton_self _, View.mem_set_unit_zero zeros2 inb_S1024x1024_S1024x1024_0_0 y⟩),
    View.canon_unit_zero zeros2]
  simp only [View.readAt_eq_ld, harg7.read_unread, harg3.read_unread, harg4.read_unread, View.ld_unit_zero (S := S1024x1024) zeros2]

/-! ## The accumulator after each point -/

/-- What the scratch accumulator holds after the body at grid position `n`: this step's product added onto zero when
    the step is the first of its tile (n % 4 = 0), onto what the point before left otherwise. -/
def accAfter (c : Dev nD) : (n : ℕ) → n < cfg1.N → Vec F S1024x1024 .f32
  | 0, hn => k1_pay2 (k1_pay1 (F := F)) (blockAt V c 0 ⟨0, hn⟩) (blockAt V c 1 ⟨0, hn⟩)
  | n + 1, hn =>
    if (n + 1) % 4 = 0 then k1_pay2 (k1_pay1 (F := F)) (blockAt V c 0 ⟨n + 1, hn⟩) (blockAt V c 1 ⟨n + 1, hn⟩)
    else k1_pay2 (accAfter c n (Nat.lt_of_succ_lt hn)) (blockAt V c 0 ⟨n + 1, hn⟩) (blockAt V c 1 ⟨n + 1, hn⟩)

theorem accAfter_first (c : Dev nD) (t : Fin cfg1.N) (h : t.val % 4 = 0) :
    accAfter V c t.val t.isLt = k1_pay2 (k1_pay1 (F := F)) (blockAt V c 0 t) (blockAt V c 1 t) := by
  obtain ⟨n, hn⟩ := t
  cases n with
  | zero => rfl
  | succ n => exact if_pos h

theorem accAfter_next (c : Dev nD) (t : Fin cfg1.N) (h : ¬t.val % 4 = 0) :
    accAfter V c t.val t.isLt
      = k1_pay2 (accAfter V c (t.val - 1) (Nat.lt_of_le_of_lt (Nat.sub_le _ _) t.isLt)) (blockAt V c 0 t) (blockAt V c 1 t) := by
  obtain ⟨n, hn⟩ := t
  cases n with
  | zero => exact absurd (Nat.zero_mod _) h
  | succ n => exact if_neg h

/-- What the output tile's staging buffer holds after the body at a last step: the accumulator plus the bias row. -/
def outAfter (c : Dev nD) (t : Fin cfg1.N) : Vec F S1024x1024 .f32 :=
  k1_pay3 (accAfter V c t.val t.isLt) (blockAt V c 2 t)

/-! ## The region's invariant: the scratch carried between points -/

/-- The core's scoped buffers that this region neither stages nor uses: the first region's four staging buffers,
    each at some contents. -/
def others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f))

/-- The invariant before grid position `n`: before the first point the accumulator is at anything; afterwards it holds
    what the point before left. Beside it the unused scoped buffers and the generator register, untouched. -/
def carried (c : Dev nD) : (n : ℕ) → n ≤ cfg1.N → sProp 𝕄
  | 0, _ => iprop(others (F := F) c ∗ (∃ d, owns (c : Thread nD τ) accM fullShare d) ∗ (∃ r, prngReg c r))
  | n + 1, hn => iprop(others (F := F) c ∗ owns (c : Thread nD τ) accM fullShare (accAfter V c n hn) ∗ (∃ r, prngReg c r))

theorem carried_zero (c : Dev nD) (n : ℕ) (h : n ≤ cfg1.N) (hz : n = 0) :
    carried V c n h = iprop(others (F := F) c ∗ (∃ d, owns (c : Thread nD τ) accM fullShare d) ∗ (∃ r, prngReg c r)) := by
  subst hz; rfl

theorem carried_succ (c : Dev nD) (n : ℕ) (hn : n < cfg1.N) :
    carried V c (n + 1) hn = iprop(others (F := F) c ∗ owns (c : Thread nD τ) accM fullShare (accAfter V c n hn) ∗ (∃ r, prngReg c r)) := rfl

theorem carried_pos (c : Dev nD) (n : ℕ) (h : n ≤ cfg1.N) (hz : n ≠ 0) :
    carried V c n h = iprop(others (F := F) c ∗ owns (c : Thread nD τ) accM fullShare (accAfter V c (n - 1) (by omega)) ∗ (∃ r, prngReg c r)) := by
  cases n with
  | zero => exact absurd rfl hz
  | succ n => rfl

/-- The class's plain invariant (every scoped buffer the region does not stage at some contents, the generator
    register at some state) gives the invariant before the first point, spelt buffer by buffer; -/
theorem plain_to (c : Dev nD) :
    (Pipeline.ΦA spec1 c : sProp 𝕄)
      ⊢ iprop(others (F := F) c ∗ (∃ d, owns (c : Thread nD τ) accM fullShare d) ∗ (∃ r, prngReg c r)) := by
  unfold Pipeline.ΦA others; rw [scopedRest1_eq]; simp only [accM, owns_whole]
  iintro ⟨⟨H0, H1, H2, H3, HS⟩, Hg⟩
  isplitl [H0 H1 H2 H3]
  · isplitl [H0]; · iexact H0
    isplitl [H1]; · iexact H1
    isplitl [H2]; · iexact H2
    iexact H3
  isplitl [HS]; · iexact HS
  iexact Hg

/-- and back. -/
theorem plain_from (c : Dev nD) :
    iprop(others (F := F) c ∗ (∃ d, owns (c : Thread nD τ) accM fullShare d) ∗ (∃ r, prngReg c r))
      ⊢ (Pipeline.ΦA spec1 c : sProp 𝕄) := by
  unfold Pipeline.ΦA others; rw [scopedRest1_eq]; simp only [accM, owns_whole]
  iintro ⟨⟨H0, H1, H2, H3⟩, HS, Hg⟩
  isplitl [H0 H1 H2 H3 HS]
  · isplitl [H0]; · iexact H0
    isplitl [H1]; · iexact H1
    isplitl [H2]; · iexact H2
    isplitl [H3]; · iexact H3
    iexact HS
  iexact Hg

/-! ## The proof data of the region -/

/-- The region's proof data on core `c`: the four arrays as the region finds them; after the body each input window's
    buffer still at its block, the output window's at the accumulator plus bias (consulted only at the last steps,
    where the window is live); the invariant carries the accumulator; nothing is owed. -/
def dat (c : Dev nD) : Dat τ (Elt F) Unit ℕ (Pipeline.UD sig nD τ) ℕ cfg1 c where
  A w := V c (Pipeline.arrRef spec1 w)
  after w t := match w with
    | ⟨0, _⟩ => blockAt V c 0 t
    | ⟨1, _⟩ => blockAt V c 1 t
    | ⟨2, _⟩ => blockAt V c 2 t
    | ⟨3, _⟩ => outAfter V c t
  Φ t := carried V c t.val (Nat.le_of_lt_succ t.isLt)
  q _ := fullShare
  owed _ := 0

theorem dat_A (c : Dev nD) (w : Fin cfg1.W) : (dat V c).A w = V c (Pipeline.arrRef spec1 w) := by
  dsimp only [dat]

theorem after_0 (c : Dev nD) (t : Fin cfg1.N) : (dat V c).after 0 t = blockAt V c 0 t := by dsimp only [dat]
theorem after_1 (c : Dev nD) (t : Fin cfg1.N) : (dat V c).after 1 t = blockAt V c 1 t := by dsimp only [dat]
theorem after_2 (c : Dev nD) (t : Fin cfg1.N) : (dat V c).after 2 t = blockAt V c 2 t := by dsimp only [dat]
theorem after_3 (c : Dev nD) (t : Fin cfg1.N) : (dat V c).after 3 t = outAfter V c t := by dsimp only [dat]

theorem inv_castSucc (c : Dev nD) (t : Fin cfg1.N) :
    (dat V c).Φ t.castSucc = carried V c t.val (Nat.le_of_lt t.isLt) := by
  dsimp only [dat]; simp only [Fin.coe_castSucc]

/-- An input window's current staging buffer holds the point's block when the body runs, fetched at that point or
    not (the bias segment is fetched only when the tile column changes, and its block index does not move between). -/
theorem before_0 (c : Dev nD) (t : Fin cfg1.N) (d) : (dat V c).before 0 t d = blockAt V c 0 t :=
  ((dat V c).before_in_eq_fetched 0 rfl (fun _ => rfl) (fun _ _ _ => rfl)
      (fun t => by rw [after_0]; unfold Dat.blockOf blockAt; rw [dat_A]) t d).trans
    (by unfold Dat.fetched Dat.blockOf blockAt; rw [dat_A]; try rfl)
theorem before_1 (c : Dev nD) (t : Fin cfg1.N) (d) : (dat V c).before 1 t d = blockAt V c 1 t :=
  ((dat V c).before_in_eq_fetched 1 rfl (fun _ => rfl) (fun _ _ _ => rfl)
      (fun t => by rw [after_1]; unfold Dat.blockOf blockAt; rw [dat_A]) t d).trans
    (by unfold Dat.fetched Dat.blockOf blockAt; rw [dat_A]; try rfl)
theorem before_2 (c : Dev nD) (t : Fin cfg1.N) (d) : (dat V c).before 2 t d = blockAt V c 2 t :=
  ((dat V c).before_in_eq_fetched 2 rfl (fun _ => rfl) (fun _ _ _ => rfl)
      (fun t => by rw [after_2]; unfold Dat.blockOf blockAt; rw [dat_A]) t d).trans
    (by unfold Dat.fetched Dat.blockOf blockAt; rw [dat_A]; try rfl)

/-! ## The body obligation -/

/-- What the body is handed at point `t`. -/
def pre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- What it hands back. -/
def post (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

theorem leaves_in (c : Dev nD) (w : Fin cfg1.W) (t : Fin cfg1.N) (hlive : cfg1.idle w (grid1.coords t) = false) :
    (dat V c).leavesExact w t = owns (c : Thread nD τ) ((cfg1.win w).stage (cfg1.slots t w)) fullShare ((dat V c).after w t) := by
  unfold Dat.leavesExact; rw [hlive]

set_option maxHeartbeats 4000000 in
/-- The body at any point, by the step k = t % 4: the inputs' buffers hold their blocks; the invariant hands over the
    accumulator at what the point before left (at anything before the first point) and takes it back at this point's. -/
theorem body_at (c : Dev nD) (t : Fin cfg1.N) :
    pre V c t ⊢ wp frame (wpE (defs₀ (F := F)) Variants.none c none) Set.univ (bodyAt1 t) (fun _ => post V c t) := by
  unfold pre post bodyAt1
  simp only [before_0, before_1, before_2]
  rw [show (dat V c).owesAt () t.succ = (dat V c).owesAt () t.castSucc from rfl]
  rw [show (dat V c).Φ t.succ = carried V c (t.val + 1) t.isLt from rfl, carried_succ]
  rw [leaves_in V c 0 t rfl, leaves_in V c 1 t rfl, leaves_in V c 2 t rfl, after_0, after_1, after_2]
  have hN : t.val < 352 := lt_of_lt_of_eq t.isLt (show cfg1.N = 352 from N_1)
  by_cases h0 : t.val % 4 = 0
  · have hl : ¬isLast (grid1.coords t) := fun h => by have := (isLast_iff t).mp h; omega
    rw [Dat.leavesExact_idle (dat V c) 3 t (out_idle t hl) (out_not_flushed t hl)]
    rw [accAfter_first V c t h0]
    by_cases hz : t.val = 0
    · rw [inv_castSucc V c t, carried_zero V c _ _ hz]
      iintro ⟨⟨HR, HS, Hg⟩, Ho, ⟨%d0, H0⟩, ⟨%d1, H1⟩, ⟨%d2, H2⟩, ⟨%d3, H3⟩⟩
      iapply (run_first c Set.univ (grid1.coords t) _ _ _ _ _ _ _ _ _ _ ((isFirst_iff t).mpr h0) hl
        (blockAt V c 0 t) (blockAt V c 1 t) (blockAt V c 2 t) _ _)
      isplitl [H0]; · iexact H0
      isplitl [H1]; · iexact H1
      isplitl [H2]; · iexact H2
      isplitl [H3]; · iexact H3
      isplitl [HS]; · iexact HS
      iintro ⟨H0, H1, H2, H3, HS⟩
      isplitl [HR HS Hg]
      · isplitl [HR]; · iexact HR
        isplitl [HS]; · iexact HS
        iexact Hg
      isplitl [Ho]; · iexact Ho
      isplitl [H0]; · iexact H0
      isplitl [H1]; · iexact H1
      isplitl [H2]; · iexact H2
      iexists _; iexact H3
    · rw [inv_castSucc V c t, carried_pos V c _ _ hz]
      iintro ⟨⟨HR, HS, Hg⟩, Ho, ⟨%d0, H0⟩, ⟨%d1, H1⟩, ⟨%d2, H2⟩, ⟨%d3, H3⟩⟩
      iapply (run_first c Set.univ (grid1.coords t) _ _ _ _ _ _ _ _ _ _ ((isFirst_iff t).mpr h0) hl
        (blockAt V c 0 t) (blockAt V c 1 t) (blockAt V c 2 t) _ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HR HS Hg]
      · isplitl [HR]; · iexact HR
        isplitl [HS]; · iexact HS
        iexact Hg
      isplitl [Ho]; · iexact Ho
      isplitl [H0]; · iexact H0
      isplitl [H1]; · iexact H1
      isplitl [H2]; · iexact H2
      iexists _; iexact H3
  · have hf : ¬isFirst (grid1.coords t) := fun h => h0 ((isFirst_iff t).mp h)
    have hz : t.val ≠ 0 := fun h => h0 (by rw [h])
    rw [inv_castSucc V c t, carried_pos V c _ _ hz, accAfter_next V c t h0]
    by_cases h3 : t.val % 4 = 3
    · have hl : isLast (grid1.coords t) := (isLast_iff t).mpr h3
      rw [leaves_in V c 3 t (out_live t hl), after_3]
      unfold outAfter
      rw [accAfter_next V c t h0]
      iintro ⟨⟨HR, HS, Hg⟩, Ho, ⟨%d0, H0⟩, ⟨%d1, H1⟩, ⟨%d2, H2⟩, ⟨%d3, H3⟩⟩
      iapply (run_last c Set.univ (grid1.coords t) _ _ _ _ _ _ _ _ _ _ hf hl
        (blockAt V c 0 t) (blockAt V c 1 t) (blockAt V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HR HS Hg]
      · isplitl [HR]; · iexact HR
        isplitl [HS]; · iexact HS
        iexact Hg
      isplitl [Ho]; · iexact Ho
      isplitl [H0]; · iexact H0
      isplitl [H1]; · iexact H1
      isplitl [H2]; · iexact H2
      iexact H3
    · have hl : ¬isLast (grid1.coords t) := fun h => h3 ((isLast_iff t).mp h)
      rw [Dat.leavesExact_idle (dat V c) 3 t (out_idle t hl) (out_not_flushed t hl)]
      iintro ⟨⟨HR, HS, Hg⟩, Ho, ⟨%d0, H0⟩, ⟨%d1, H1⟩, ⟨%d2, H2⟩, ⟨%d3, H3⟩⟩
      iapply (run_middle c Set.univ (grid1.coords t) _ _ _ _ _ _ _ _ _ _ hf hl
        (blockAt V c 0 t) (blockAt V c 1 t) (blockAt V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HR HS Hg]
      · isplitl [HR]; · iexact HR
        isplitl [HS]; · iexact HS
        iexact Hg
      isplitl [Ho]; · iexact Ho
      isplitl [H0]; · iexact H0
      isplitl [H1]; · iexact H1
      isplitl [H2]; · iexact H2
      iexists _; iexact H3

/-- The library's body obligation for this region, at every point. -/
theorem body_obligation (c : Dev nD) : BodyObligation (dat (F := F) V c) (defs₀ (F := F)) Variants.none () Set.univ := fun t => by
  rw [bigSep_W1, bigSep_W1]
  exact body_at V c t

/-- What the region's entry hands over (the plain invariant) is the invariant before the first point. -/
theorem inv_in (c : Dev nD) : Pipeline.ΦA spec1 c ⊢ (dat V c).Φ 0 := by
  rw [show (dat V c).Φ 0 = carried V c 0 (Nat.zero_le _) from rfl, carried_zero V c 0 _ rfl]
  exact plain_to c

/-- The accumulator's contents may be forgotten. -/
theorem forget_acc (c : Dev nD) (x : Vec F S1024x1024 .f32) :
    iprop(others (F := F) c ∗ owns (c : Thread nD τ) accM fullShare x ∗ (∃ r, prngReg c r))
      ⊢ (iprop(others (F := F) c ∗ (∃ d, owns (c : Thread nD τ) accM fullShare d) ∗ (∃ r, prngReg c r)) : sProp 𝕄) := by
  iintro ⟨HR, HS, Hg⟩
  isplitl [HR]; · iexact HR
  isplitl [HS]; · iexists _; iexact HS
  iexact Hg

/-- After the last point the invariant gives the plain one back: what the accumulator holds is forgotten. -/
theorem inv_out (c : Dev nD) : (dat V c).Φ (Fin.last cfg1.N) ⊢ Pipeline.ΦA spec1 c := by
  rw [show (dat V c).Φ (Fin.last cfg1.N) = carried V c (Fin.last cfg1.N).val (Nat.le_of_lt_succ (Fin.last cfg1.N).isLt) from rfl,
    carried_pos V c _ _ (by rw [Fin.val_last]; have : cfg1.N = 352 := N_1; omega)]
  exact (forget_acc c _).trans (plain_from c)

end Cert.KernelIdeal.Matmul

end
-- ==== Proof.RegionRecords.lean ====
/-
  The two kernel regions as segments of @main, and the program's frame.

  Between two items of @main a core holds every unscoped buffer at a known valuation: the launch contents, then each
  host stretch applied in turn, then — after a kernel region — the same with the region's output array replaced by what
  the region leaves. The first region (32 grid points) leaves in its output array the write-backs of its 32 blocks; the
  second (352 points) leaves in its output the tiles written back at the last step of each tile. Each region takes its
  arrays out of the held buffers at its entry, runs its pipeline under the body obligation, and puts the arrays back at
  its exit; the generator register and the core's dues (none) ride along. The host side of @main, the launch and the
  read-back of the arguments are the generated conditional frame's; what is supplied here is each region's record.
-/
import proofs.«109478_j15118284882234_1_alg».proof.Proof.QuantBody
import proofs.«109478_j15118284882234_1_alg».proof.Proof.MatmulBody
import proofs.«109478_j15118284882234_1_alg».proof.Proof.Gen.KernelIdeal.Regions
import Idealize.ShloMosaic.Lib.Pipeline.RegionsLoop
import Idealize.ShloMosaic.Lib.Pipeline.Kit

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! ## What the regions leave -/

/-- The first region's entry contents: the launch memory after the flattening of the activations. -/
abbrev entry0 (c : Dev nD) (b : Ref sig .tc) : Buf (Elt F) ((c : Thread nD τ).loc b) := Gen.V1 m c b

/-- What the first region leaves in its output array: its 32 blocks written back. -/
def quantOut (c : Dev nD) : Buf (Elt F) ((c : Thread nD τ).loc main_v1) :=
  (Quant.dat (entry0 m) c).arrAt 1 cfg0.N

/-- The unknowns of the generated valuations with the first region's output filled in. -/
def outs₁ : Gen.Outs (F := F) := fun _ r c =>
  if h : r = main_v1 then h ▸ quantOut m c else m ((c : Thread nD τ).loc r)

/-- The second region's entry contents: after the first region and the host stretches that narrow and pad the weights
    and pad the bias. -/
abbrev entry1 (c : Dev nD) (b : Ref sig .tc) : Buf (Elt F) ((c : Thread nD τ).loc b) := Gen.V7 m (outs₁ m) c b

/-- What the second region leaves in its output array: the tiles written back at the last step of each. -/
def matmulOut (c : Dev nD) : Buf (Elt F) ((c : Thread nD τ).loc main_v6) :=
  (Matmul.dat (entry1 m) c).arrAt 3 cfg1.N

/-- Both regions' outputs filled in. -/
def outs : Gen.Outs (F := F) := fun n r c =>
  if n = 8 then (if h : r = main_v6 then h ▸ matmulOut m c else m ((c : Thread nD τ).loc r)) else outs₁ m n r c

theorem outs_quant (c : Dev nD) : outs m 2 main_v1 c = quantOut m c := by
  simp only [outs, outs₁]; rfl
theorem outs_matmul (c : Dev nD) : outs m 8 main_v6 c = matmulOut m c := by
  simp only [outs]; rfl
/-- Up to the second region's entry only the first region's output is read. -/
theorem V7_outs (c : Dev nD) : Gen.V7 m (outs m) c = Gen.V7 m (outs₁ m) c := rfl

/-! ## The proof data family and what rides along -/

/-- Every pipeline's proof data, each at its region's entry contents. -/
def pdats : (p : Fin 2) → (c : Dev nD) → Dat τ (Elt F) Unit ℕ (Pipeline.UD sig nD τ) ℕ (cfgs p) c
  | ⟨0, _⟩ => fun c => Quant.dat (entry0 m) c
  | ⟨1, _⟩ => fun c => Matmul.dat (entry1 m) c

abbrev 𝒱₀ : Variants := Variants.none
/-- No core owes another anything: no level is assigned. -/
abbrev L : GSem nD τ sig → Finset Unit := fun _ => ∅
abbrev lv : GSem nD τ sig → Unit → ℕ := fun _ _ => 0

/-- Beside the buffers through every item: the generator register at some state and the core owing nothing. -/
abbrev rest (c : Dev nD) : sProp 𝕄 :=
  iprop((∃ r, prngReg c r) ∗ ∃ W, owes (c : Thread nD τ) (0 : CellTallies nD τ sig Unit) W)
abbrev E : Fin 3 → Dev nD → sProp 𝕄 := fun _ c => rest (F := F) c

/-! ## The first region -/

/-- At the first region's exit its arrays hold what the pipeline leaves: the input as entered, the output its write-backs. -/
theorem exit0_arr (c : Dev nD) (w : Fin cfg0.W) :
    (pdats m 0 c).arrAt w cfg0.N = Gen.V2 m (outs m) c (Pipeline.arrRef spec0 w) := by
  match w with
  | ⟨0, _⟩ =>
    exact (((pdats m 0 c).arrAt_in 0 rfl _).trans (Quant.dat_A (entry0 m) c 0)).trans
      (Gen.V2_of m (outs m) c main_v0 (by decide)).symm
  | ⟨1, _⟩ =>
    show quantOut m c = Function.update (Gen.V1 m c) main_v1 (outs m 2 main_v1 c) main_v1
    rw [Function.update_self, outs_quant]

/-- Every other unscoped buffer is as entered. -/
theorem exit0_rest (c : Dev nD) : ∀ b : Ref sig .tc, b ∉ Finset.univ.image (Pipeline.arrRef spec0) →
    Gen.V2 m (outs m) c b = Gen.V1 m c b := fun b hb =>
  Gen.V2_of m (outs m) c b (fun h => hb (by
    rw [List.mem_singleton] at h; subst h
    exact Finset.mem_image.mpr ⟨1, Finset.mem_univ _, rfl⟩))

-- a library lemma stated over the pinned configuration unifies with the printed one only when unification may unfold
-- plain definitions in a metavariable's type
set_option backward.isDefEq.respectTransparency.types false in
/-- The first region over the thread state: entered from every unscoped buffer at the valuation after the first host
    stretch, left at that valuation with the region's output replaced. Its two arrays are taken out of the held buffers
    and put back; the generator register goes into the plain invariant and comes out; nothing is owed; the kernel has no
    semaphore of its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (Quant.body_obligation (entry0 m) c).loose
  hwaits := Pipeline.hwaits_of_owed_zero _ _ _ _ L lv 0 fun _ _ => rfl
  pre c := iprop(StableHlo.held (c : Thread nD τ) (Pipeline.ucRefs τ sig) (Gen.V1 m c) ∗ rest c)
  post c := iprop(StableHlo.held (c : Thread nD τ) (Pipeline.ucRefs τ sig) (Gen.V2 m (outs m) c) ∗ rest c)
  X c := iprop(∃ r, prngReg c r)
  Y c := iprop(∃ r, prngReg c r)
  Z c := Pipeline.unscopedRest (Ix := Unit) (Name := ℕ) (U := Pipeline.UD sig nD τ) (Lvl := ℕ) spec0 c (entry0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (entry0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := Pipeline.UD sig nD τ) (Lvl := ℕ)
      launch0.win launch0.arr_whole c (pdats m) ((pdats m 0 c).share_full fun _ => rfl)
      (entry0 m c) (fun b => Gen.V2 m (outs m) c b) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second region -/

/-- At the second region's exit its arrays hold what the pipeline leaves: the three inputs as entered, the output the
    tiles written back. -/
theorem exit1_arr (c : Dev nD) (w : Fin cfg1.W) :
    (pdats m 1 c).arrAt w cfg1.N = Gen.V8 m (outs m) c (Pipeline.arrRef spec1 w) := by
  match w with
  | ⟨0, _⟩ =>
    exact (((pdats m 1 c).arrAt_in 0 rfl _).trans (Matmul.dat_A (entry1 m) c 0)).trans
      ((Gen.V8_of m (outs m) c main_v1 (by decide)).trans (congrFun (V7_outs m c) _)).symm
  | ⟨1, _⟩ =>
    exact (((pdats m 1 c).arrAt_in 1 rfl _).trans (Matmul.dat_A (entry1 m) c 1)).trans
      ((Gen.V8_of m (outs m) c main_v3 (by decide)).trans (congrFun (V7_outs m c) _)).symm
  | ⟨2, _⟩ =>
    exact (((pdats m 1 c).arrAt_in 2 rfl _).trans (Matmul.dat_A (entry1 m) c 2)).trans
      ((Gen.V8_of m (outs m) c main_v5 (by decide)).trans (congrFun (V7_outs m c) _)).symm
  | ⟨3, _⟩ =>
    show matmulOut m c = Function.update (Gen.V7 m (outs m) c) main_v6 (outs m 8 main_v6 c) main_v6
    rw [Function.update_self, outs_matmul]

theorem exit1_rest (c : Dev nD) : ∀ b : Ref sig .tc, b ∉ Finset.univ.image (Pipeline.arrRef spec1) →
    Gen.V8 m (outs m) c b = entry1 m c b := fun b hb =>
  (Gen.V8_of m (outs m) c b (fun h => hb (by
    rw [List.mem_singleton] at h; subst h
    exact Finset.mem_image.mpr ⟨3, Finset.mem_univ _, rfl⟩))).trans (congrFun (V7_outs m c) _)

/-- What the region's entry hands its invariant: the generator register, no table, the scoped rest. -/
theorem entry1_inv (c : Dev nD) :
    iprop((∃ r, prngReg c r) ∗ Pipeline.prefHeld (Ix := Unit) (Name := ℕ) (U := Pipeline.UD sig nD τ) (Lvl := ℕ) (pcfgs (F := F) 1).pre c (fun _ => fullShare) (Gen.adm (F := F) 1).1
        ∗ Pipeline.scopedRest (Ix := Unit) (Name := ℕ) (U := Pipeline.UD sig nD τ) (Lvl := ℕ) (Val := Elt F) spec1 c)
      ⊢ (Pipeline.ΦA spec1 c : sProp 𝕄) := by
  unfold Pipeline.ΦA
  iintro ⟨Hp, -, Hr⟩
  isplitl [Hr]; · iexact Hr
  iexact Hp

/-- What the plain invariant gives back at the exit. -/
theorem exit1_inv (c : Dev nD) :
    (Pipeline.ΦA spec1 c : sProp 𝕄)
      ⊢ iprop((∃ r, prngReg c r) ∗ Pipeline.ownSems0 (Ix := Unit) (Name := ℕ) (U := Pipeline.UD sig nD τ) (Lvl := ℕ) (Val := Elt F) (τ := τ) (fun k : PEmpty => k.elim) c
        ∗ Pipeline.scopedRest (Ix := Unit) (Name := ℕ) (U := Pipeline.UD sig nD τ) (Lvl := ℕ) (Val := Elt F) spec1 c) := by
  rw [Pipeline.ownSems0_none]; unfold Pipeline.ΦA
  iintro ⟨Hr, Hp⟩
  isplitl [Hp]; · iexact Hp
  isplitr; · iempintro
  iexact Hr

set_option backward.isDefEq.respectTransparency.types false in
/-- The second region over the thread state: entered from every unscoped buffer at the valuation after the pads, left
    at that valuation with the region's output replaced. Its four arrays are taken out of the held buffers and put
    back; the invariant carries the accumulator from point to point and forgets it at the exit. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (Matmul.body_obligation (entry1 m) c).loose
  hwaits := Pipeline.hwaits_of_owed_zero _ _ _ _ L lv 1 fun _ _ => rfl
  pre c := iprop(StableHlo.held (c : Thread nD τ) (Pipeline.ucRefs τ sig) (Gen.V7 m (outs m) c) ∗ rest c)
  post c := iprop(StableHlo.held (c : Thread nD τ) (Pipeline.ucRefs τ sig) (Gen.V8 m (outs m) c) ∗ rest c)
  X c := iprop(∃ r, prngReg c r)
  Y c := iprop(∃ r, prngReg c r)
  Z c := Pipeline.unscopedRest (Ix := Unit) (Name := ℕ) (U := Pipeline.UD sig nD τ) (Lvl := ℕ) spec1 c (entry1 m c)
  hentry c := by
    rw [Pipeline.ownSems0_none, V7_outs]
    have hsplit := Pipeline.arrays_of_unscopedBufs (p := 1) (pcfgs (F := F)) Gen.adm (pdats m) launch1.win launch1.arr_whole c
      ((pdats m 1 c).share_full fun _ => rfl) (entry1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (entry1_inv c).trans (Matmul.inv_in (entry1 m) c)
  hout c := (Matmul.inv_out (entry1 m) c).trans (exit1_inv c)
  hexit c := by
    have hjoin := Pipeline.unscopedBufs_of_arrays (p := 1) (pcfgs (F := F)) Gen.adm (Ix := Unit) (Name := ℕ) (U := Pipeline.UD sig nD τ) (Lvl := ℕ)
      launch1.win launch1.arr_whole c (pdats m) ((pdats m 1 c).share_full fun _ => rfl)
      (entry1 m c) (fun b => Gen.V8 m (outs m) c b) ((pdats m 1 c).arrAt · cfg1.N) (exit1_arr m c) (exit1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

variable (ρ : Dev nD → PrngReg)

/-- The launch element: the pipelines' ghost state at every staging cell, nothing besides. -/
abbrev u₀ : Pipeline.UD sig nD τ := (initOf (Pipeline.cells cfgs cellOf_inj) (Pipeline.launchToks cfgs cellOf_inj), 1)

theorem launch_ghost :
    (ownU (u₀) : sProp 𝕄) ⊢ |={Set.univ}=> iprop(BI.own ((embL : Emb _ 𝕄) (initOf (Pipeline.cells cfgs cellOf_inj) (Pipeline.launchToks cfgs cellOf_inj)))
      ∗ bigSep Finset.univ (fun _ : Dev nD => (BI.emp : sProp 𝕄))) := by
  iintro Hu
  ihave H := (ownU_pair _ _) $$ Hu
  icases H with ⟨HP, -⟩
  imodintro
  isplitl [HP]; · iexact HP
  iapply (show (BI.emp : sProp 𝕄) ⊢ bigSep Finset.univ (fun _ : Dev nD => (BI.emp : sProp 𝕄)) from by rw [BI.bigSep_emp_const])
  iempintro

set_option backward.isDefEq.respectTransparency.types false in
/-- At the compiled mesh, from any memory with zero counters, every weakly fair execution of @main terminates,
    nothing faulting, and every final memory holds the three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Gen.frame_cond m embL () 𝒱₀ L lv (fun _ _ => rfl) ρ (outs m) (pdats m) 0 (fun _ => iprop(emp)) u₀ launch_ghost
    E
    (Pipeline.initEach L lv fun c => by
      iintro ⟨⟨-, HO, -, Hp, -⟩, -⟩
      imodintro
      isplitl [Hp]; · iexists _; iexact Hp
      iexists ∅; iexact HO)
    (fun c => by iintro ⟨-, HO⟩; iexact HO)
    (reg0 m) (fun c => .rfl) (fun c => .rfl)
    (reg1 m) (fun c => .rfl) (fun c => .rfl)

end Cert.KernelIdeal.Run

end
-- ==== Proof.RunNamed.lean ====
/-
  The idealized kernel program's run with its result named.

  The same two region records that give the frame, handed to the conditional frame's launch with the post widened:
  every weakly fair execution terminates, the three arguments end as launched, and the result array ends at the last
  valuation's contents — the second region's output, its first 11008 columns, viewed as [4, 2048, 11008].
-/
import proofs.«109478_j15118284882234_1_alg».proof.Proof.RegionRecords
import proofs.«109478_j15118284882234_1_alg».proof.Proof.RunCond

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option backward.isDefEq.respectTransparency.types false in
/-- Every weakly fair execution of @main terminates with the result array at the last valuation's contents and the
    three arguments as launched. -/
theorem run_named : θ_run defs (onTc (τ := τ) (main (F := F))) ⟨m, fun _ => 0, ρ⟩ (fun r => ∀ c : Dev nD,
      r.2.mem ((c.tc : Thread nD τ).loc main_v8) = Gen.V9 m (outs m) c main_v8
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Gen.run_cond m embL () 𝒱₀ L lv (fun _ _ => rfl) ρ (outs m) (pdats m) 0 (fun _ => iprop(emp)) u₀ launch_ghost
    E
    (Pipeline.initEach L lv fun c => by
      iintro ⟨⟨-, HO, -, Hp, -⟩, -⟩
      imodintro
      isplitl [Hp]; · iexists _; iexact Hp
      iexists ∅; iexact HO)
    (fun c => by iintro ⟨-, HO⟩; iexact HO)
    (reg0 m) (fun c => .rfl) (fun c => .rfl)
    (reg1 m) (fun c => .rfl) (fun c => .rfl)

end Cert.KernelIdeal.Run

end
-- ==== Proof.HostGlue.lean ====
/-
  The host operations around the two kernel regions, each read at one index, at the ideal instance.

  The activations [4, 2048, 4096] are flattened to [8192, 4096]: row 2048 b + s of the flat matrix is row (b, s).
  The weights [11008, 4096] are narrowed (the identity on extended reals) and 256 rows are appended below them;
  the bias [11008] gets 256 entries appended and is then viewed as one row [1, 11264]. The padded output
  [8192, 11264] is cut back to its first 11008 columns and viewed as [4, 2048, 11008].

  The final result only reads output features o < 11008, and there every padded array is its operand: the value
  the padding is filled with never enters.
-/
import proofs.«109478_j15118284882234_1_alg».proof.Proof.Gen.KernelIdeal
import Idealize.ShloMosaic.Lib.ValueIdx
import Idealize.ShloMosaic.Lib.Pipeline.Value
import Idealize.ShloMosaic.Lib.KernelVsHost

noncomputable section

namespace Cert.KernelIdeal.Host

open Cert.KernelIdeal Idealize.ShloMosaic Idealize.ShloMosaic.ValueIdx
open Facts₀

/-- Row 2048 b + s of the flattened activations is row (b, s). -/
theorem flat_rows_apply (X : Vec Ideal S4x2048x4096 .f32) (b : Fin 4) (s : Fin 2048) (p : Fin 4096) :
    shapeCast S8192x4096 X shapeCasts_S4x2048x4096_S8192x4096 (ix2 ⟨2048 * b.val + s.val, by omega⟩ p) = X (ix3 b s p) := by
  refine shapeCast_apply _ _ _ _ ?_
  rw [Shape.rowMajor_val_two, Shape.rowMajor_val_three]
  show (b.val * 2048 + s.val) * 4096 + p.val = (2048 * b.val + s.val) * 4096 + p.val
  omega

/-- Above the padding the padded narrowed weights are the weights. -/
theorem padded_weights_apply (W : Vec Ideal S11008x4096 .f32) (z : Vec Ideal S_ .bf16) (o : Fin 11008) (p : Fin 4096) :
    pad S11264x4096 ![0, 0] ![256, 0] ![0, 0] (truncf (F := Ideal) .bf16 W bitsLt_bf16_f32) z pads_S11008x4096_S11264x4096_02560_000 h_S_ (ix2 ⟨o.val, by omega⟩ p) = W (ix2 o p) := by
  refine (pad_apply_of_inside _ _ _ _ z pads_S11008x4096_S11264x4096_02560_000 h_S_ _ (ix2 o p)
    (fun a => match a with | ⟨0, _⟩ => ?_ | ⟨1, _⟩ => ?_)).trans ?_
  · show o.val = 0 + o.val * (0 + 1)
    omega
  · show p.val = 0 + p.val * (0 + 1)
    omega
  · rfl

/-- Before the padding the padded bias, viewed as one row, is the bias. -/
theorem padded_bias_apply (B : Vec Ideal S11008 .f32) (z : Vec Ideal S_ .f32) (o : Fin 11008) :
    shapeCast S1x11264 (pad S11264 ![0] ![256] ![0] B z pads_S11008_S11264_02560 h_S_) shapeCasts_S11264_S1x11264 (ix2 0 ⟨o.val, by omega⟩) = B (ix1 o) := by
  refine (shapeCast_apply _ shapeCasts_S11264_S1x11264 _ (ix1 (⟨o.val, by omega⟩ : Fin 11264)) ?_).trans ?_
  · rw [Shape.rowMajor_val_two, Shape.rowMajor_val_one]
    show o.val = 0 * 11264 + o.val
    omega
  · refine pad_apply_of_inside _ _ _ B z pads_S11008_S11264_02560 h_S_ _ (ix1 o)
      (fun a => match a with | ⟨0, _⟩ => ?_)
    show o.val = 0 + o.val * (0 + 1)
    omega

/-- The result at (b, s, o) is the padded output at row 2048 b + s and column o. -/
theorem sliced_apply (Y : Vec Ideal S8192x11264 .f32) (b : Fin 4) (s : Fin 2048) (o : Fin 11008) :
    shapeCast S4x2048x11008 (extractStridedSlice S8192x11008 ![0, 0] Y slices_S8192x11264_S8192x11008_0_0) shapeCasts_S8192x11008_S4x2048x11008 (ix3 b s o)
      = Y (ix2 ⟨2048 * b.val + s.val, by omega⟩ ⟨o.val, by omega⟩) := by
  refine (shapeCast_apply _ shapeCasts_S8192x11008_S4x2048x11008 _
    (ix2 (⟨2048 * b.val + s.val, by omega⟩ : Fin 8192) o) ?_).trans ?_
  · rw [Shape.rowMajor_val_two, Shape.rowMajor_val_three]
    show (2048 * b.val + s.val) * 11008 + o.val = (b.val * 2048 + s.val) * 11008 + o.val
    omega
  · refine extractStridedSlice_apply _ Y slices_S8192x11264_S8192x11008_0_0 _ _
      (fun a => match a with | ⟨0, _⟩ => ?_ | ⟨1, _⟩ => ?_)
    · show 2048 * b.val + s.val = 0 + (2048 * b.val + s.val)
      omega
    · show o.val = 0 + o.val
      omega

end Cert.KernelIdeal.Host

end
-- ==== Proof.HostValues.lean ====
/-
  What the host stretches of the program put in the arrays the two kernel regions read, and what the last stretch
  makes of the second region's output: each an equation between whole arrays, the host operations' composed term of
  the launch memory and of what the regions leave.

  The first region reads the activations flattened to 8192 rows. The second region reads what the first left, the
  narrowed weights with 256 rows appended below, and the bias with 256 entries appended, viewed as one row. The
  result is the second region's output cut to its first 11008 columns and viewed as [4, 2048, 11008].
  The value the padding is filled with is the integer zero converted to the array's format; nothing downstream
  looks at it.
-/
import proofs.«109478_j15118284882234_1_alg».proof.Proof.RegionRecords
import Idealize.ShloMosaic.Lib.StableHlo.Run
import Idealize.ShloMosaic.PureOps.Ideal

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-- An argument array is as launched when the second host stretch begins: the first stretch does not write it and the
    first region may only change its own output. -/
theorem arg1_at_V2 (c : Dev nD) :
    Gen.V2 m (outs₁ m) c (Proc.devRef .tc main_arg1) = m ((c.tc : Thread nD τ).loc main_arg1) :=
  (Gen.V2_of m (outs₁ m) c main_arg1 (by decide)).trans ((Gen.V1_of m c main_arg1 (by decide)).trans rfl)

theorem arg2_at_V2 (c : Dev nD) :
    Gen.V2 m (outs₁ m) c (Proc.devRef .tc main_arg2) = m ((c.tc : Thread nD τ).loc main_arg2) :=
  (Gen.V2_of m (outs₁ m) c main_arg2 (by decide)).trans ((Gen.V1_of m c main_arg2 (by decide)).trans rfl)

/-- The first region reads the activations flattened to 8192 rows. -/
theorem entry0_acts (c : Dev nD) :
    entry0 (F := Ideal) m c main_v0
      = shapeCast (s := S4x2048x4096) (α := Elt Ideal .f32) S8192x4096 (m ((c.tc : Thread nD τ).loc main_arg0)) shapeCasts_S4x2048x4096_S8192x4096 := by
  show StableHlo.after hostOps0 (Gen.V0 m c) (Proc.devRef .tc main_v0) = _
  after_results
  rfl

/-- The second region reads, as its activations, what the first region left; -/
theorem entry1_acts (c : Dev nD) : entry1 (F := Ideal) m c main_v1 = quantOut m c := by
  refine (Gen.V7_of m (outs₁ m) c main_v1 (by decide)).trans ?_
  refine (Gen.V6_of m (outs₁ m) c main_v1 (by decide)).trans ?_
  refine (Gen.V5_of m (outs₁ m) c main_v1 (by decide)).trans ?_
  refine (Gen.V4_of m (outs₁ m) c main_v1 (by decide)).trans ?_
  refine (Gen.V3_of m (outs₁ m) c main_v1 (by decide)).trans ?_
  show Function.update (Gen.V1 m c) main_v1 (outs₁ m 2 main_v1 c) main_v1 = quantOut m c
  rw [Function.update_self]
  simp only [outs₁]; rfl

/-- as its weights, the narrowed weights with 256 rows of the converted integer zero below them; -/
theorem entry1_weights (c : Dev nD) :
    entry1 (F := Ideal) m c main_v3
      = pad (s := S11008x4096) (α := Elt Ideal .bf16) S11264x4096 ![0, 0] ![256, 0] ![0, 0]
          (truncf (F := Ideal) (s := S11008x4096) (φ := .f32) .bf16 (m ((c.tc : Thread nD τ).loc main_arg1)) bitsLt_bf16_f32)
          (sitofp (F := Ideal) .bf16 (constantI S_ 32 0#32)) pads_S11008x4096_S11264x4096_02560_000 h_S_ := by
  refine (Gen.V7_of m (outs₁ m) c main_v3 (by decide)).trans ?_
  refine (Gen.V6_of m (outs₁ m) c main_v3 (by decide)).trans ?_
  refine (Gen.V5_of m (outs₁ m) c main_v3 (by decide)).trans ?_
  show StableHlo.after hostOps1_1 (Gen.V3 m (outs₁ m) c) (Proc.devRef .tc main_v3) = _
  after_results
  rw [arg1_at_V2]
  simp only [StableHlo.TRef.ofBuf, StableHlo.TRef.toBuf, cast_eq]

/-- as its bias row, the bias padded by 256 entries and viewed as one row. -/
theorem entry1_bias (c : Dev nD) :
    entry1 (F := Ideal) m c main_v5
      = shapeCast S1x11264
          (pad (s := S11008) (α := Elt Ideal .f32) S11264 ![0] ![256] ![0] (m ((c.tc : Thread nD τ).loc main_arg2))
            (sitofp (F := Ideal) .f32 (constantI S_ 32 0#32)) pads_S11008_S11264_02560 h_S_)
          shapeCasts_S11264_S1x11264 := by
  show StableHlo.after hostOps1_4 (Gen.V6 m (outs₁ m) c) (Proc.devRef .tc main_v5) = _
  after_results
  rw [arg2_at_V2]
  simp only [StableHlo.TRef.ofBuf, StableHlo.TRef.toBuf, cast_eq]
  rfl

/-- The result array is the second region's output, its first 11008 columns, viewed as [4, 2048, 11008]. -/
theorem result_value (c : Dev nD) :
    Gen.V9 m (outs m) c main_v8
      = shapeCast S4x2048x11008
          (extractStridedSlice (s := S8192x11264) (α := Elt Ideal .f32) S8192x11008 ![0, 0] (matmulOut m c) slices_S8192x11264_S8192x11008_0_0)
          shapeCasts_S8192x11008_S4x2048x11008 := by
  show StableHlo.after hostOps2 (Gen.V8 m (outs m) c) (Proc.devRef .tc main_v8) = _
  after_results
  rw [show Gen.V8 m (outs m) c (Proc.devRef .tc main_v6) = matmulOut m c from by
    show Function.update (Gen.V7 m (outs m) c) main_v6 (outs m 8 main_v6 c) main_v6 = matmulOut m c
    rw [Function.update_self, outs_matmul]]
  rfl

end Cert.KernelIdeal.Run

end
-- ==== Proof.Spec.lean ====
/-
  What both programs compute, entry by entry, over the extended reals.

  A row of 4096 activations is cut into 32 groups of 128. For one group v:
    a  = max (max_j |v j|) eps                      (eps the f32 nearest 1e-8)
    b  = the least of 2, 4, 8, 16, 32 that is >= a / 7, or 64 when none is
    q j = clip (roundeven (v j / b)) to [-7, 7]          the quotient
    r j = v j - b * q j                                  the remainder
    s  = max (max_j |r j|) eps / 7                       the remainder's step
    recon j = b * q j + clip (roundeven (r j / s)) to [-8, 7] * s.
  The result at row r and output feature o is  (sum over the 4096 positions p of recon(row r)(p) * W(o, p)) + bias o.

  Everything is stated with the extended reals' own operations: max, min, +, -, *, the ideal division, rounding to
  the nearest integer with ties to even, the comparison's bit and the selection on it. Float constants are kept as
  the words both programs print; no constant is ever evaluated.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The extended real an f32 word denotes. -/
abbrev lit (b : BitVec 32) : EReal := Ideal.ofBits .f32 b

/-- Rounding to the nearest integer, ties to even; the infinities fixed. -/
abbrev rne (x : EReal) : EReal := Ideal.liftRound Ideal.roundHalfEven x

/-- The absolute value on the extended reals. -/
abbrev abs' (x : EReal) : EReal := max x (-x)

/-- The largest absolute value of a group, the maximum started from minus infinity. -/
def absMax (v : Fin 128 → EReal) : EReal :=
  Finset.univ.fold max (lit 0xFF800000#32) (fun j => abs' (v j))

/-- The power-of-two base chosen from t = (the floored group maximum) / 7: 64, lowered to 32, 16, 8, 4, 2 in turn
    whenever t is at most that value — so the last test that succeeds decides. -/
def pickBase (t : EReal) : EReal :=
  Scalar.select (Ideal.cmp .ole t (lit 0x40000000#32)) (lit 0x40000000#32)
    (Scalar.select (Ideal.cmp .ole t (lit 0x40800000#32)) (lit 0x40800000#32)
      (Scalar.select (Ideal.cmp .ole t (lit 0x41000000#32)) (lit 0x41000000#32)
        (Scalar.select (Ideal.cmp .ole t (lit 0x41800000#32)) (lit 0x41800000#32)
          (Scalar.select (Ideal.cmp .ole t (lit 0x42000000#32)) (lit 0x42000000#32)
            (lit 0x42800000#32)))))

/-- A group's base. -/
def base (v : Fin 128 → EReal) : EReal :=
  pickBase (Ideal.div (max (absMax v) (lit 0x322BCC77#32)) (lit 0x40E00000#32))

/-- The clipped rounded quotient of a group's entry by the base. -/
def quo (v : Fin 128 → EReal) (j : Fin 128) : EReal :=
  min (lit 0x40E00000#32) (max (lit 0xC0E00000#32) (rne (Ideal.div (v j) (base v))))

/-- The remainder. -/
def rem (v : Fin 128 → EReal) (j : Fin 128) : EReal := v j - base v * quo v j

/-- The remainder's quantisation step. -/
def step (v : Fin 128 → EReal) : EReal :=
  Ideal.div (max (absMax (rem v)) (lit 0x322BCC77#32)) (lit 0x40E00000#32)

/-- The group rebuilt: base * quotient + the dequantised remainder. -/
def recon (v : Fin 128 → EReal) (j : Fin 128) : EReal :=
  base v * quo v j
    + min (lit 0x40E00000#32) (max (lit 0xC1000000#32) (rne (Ideal.div (rem v j) (step v)))) * step v

/-- Group g of a row of 4096: its entries 128 g .. 128 g + 127. -/
def grp (x : Fin 4096 → EReal) (g : Fin 32) : Fin 128 → EReal :=
  fun j => x ⟨128 * g.val + j.val, by omega⟩

/-- A row rebuilt, at position p: the rebuilt group p / 128 at lane p % 128. -/
def rowRecon (x : Fin 4096 → EReal) (p : Fin 4096) : EReal :=
  recon (grp x ⟨p.val / 128, by omega⟩) ⟨p.val % 128, by omega⟩

/-- The result array: at batch b, position s and output feature o, the rebuilt row (b, s) against row o of the
    weights, plus the bias at o. -/
def result (X : (⟨3, ![4, 2048, 4096]⟩ : Shape).Idx → EReal) (W : (⟨2, ![11008, 4096]⟩ : Shape).Idx → EReal)
    (B : (⟨1, ![11008]⟩ : Shape).Idx → EReal) : (⟨3, ![4, 2048, 11008]⟩ : Shape).Idx → EReal :=
  fun i =>
    (∑ p : Fin 4096, rowRecon (fun p' => X (ix3 (i 0) (i 1) p')) p * W (ix2 (i 2) p)) + B (ix1 (i 2))

end Cert.Spec

end
-- ==== Proof.QuantValue.lean ====
/-
  The first kernel's stored value read at one entry.

  A 256 x 4096 block x is viewed as 256 x 32 x 128: group g of row r is the entries 128 g .. 128 g + 127 of that row.
  For each group the largest absolute value is taken from minus infinity, floored at eps and divided by seven; a chain of
  selections picks the power-of-two base; the quotient is the entry over the base, rounded to the nearest integer with
  ties to even and clipped to [-7, 7]; the remainder is the entry minus base times quotient; the remainder's step is its
  group's largest absolute value, floored at eps, over seven; the rebuilt value is base times quotient plus the remainder
  over the step, rounded and clipped to [-8, 7], times the step. Viewed back as 256 x 4096 and read at (r, p), over the
  extended reals, this is the scalar specification of row r at position p.

  The layout steps are read at explicit coordinates: the view at (r, g, j) is the block at (r, 128 g + j), the view back
  at (r, p) is (r, p / 128, p % 128), a kept unit axis at (r, g, u) is (r, g), and a spread along the unit axis at
  (r, g, j) is (r, g, 0). The maximum over the last axis at (r, g) is the fold of max over the 128 lanes of group (r, g).
  Every float constant stays the word it is written as; none is evaluated.
-/
import proofs.«109478_j15118284882234_1_alg».proof.Proof.QuantBody
import proofs.«109478_j15118284882234_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

set_option maxRecDepth 16384

noncomputable section

namespace Cert.KernelIdeal.Quant

open Cert.KernelIdeal Cert.KernelIdeal.Gen
open Idealize.ShloMosaic Idealize.ShloMosaic.ValueIdx

/-! ## Two elementwise operations at an index -/

/-- The absolute value of an array at an index: the larger of the entry and its negation. -/
theorem absf_at {s : Shape} {φ : FTy} (a : FVec Ideal s φ) (i : s.Idx) : absf a i = max (a i) (-(a i)) := rfl

/-- Rounding to the nearest integer, ties to even, at an index. -/
theorem roundeven_at {s : Shape} {φ : FTy} (a : FVec Ideal s φ) (i : s.Idx) :
    roundeven a i = Ideal.liftRound Ideal.roundHalfEven (a i) := rfl

/-! ## The layout steps at explicit coordinates -/

/-- A block of 256 x 4096 viewed as 256 x 32 x 128 reads, at (r, g, j), the block at (r, 128 g + j). -/
theorem view_at {α : Type} (x : S256x4096.Idx → α) (h : S256x4096.ShapeCasts S256x32x128)
    (r : Fin 256) (g : Fin 32) (j : Fin 128) :
    shapeCast S256x32x128 x h (ix3 r g j) = x (ix2 r ⟨128 * g.val + j.val, by omega⟩) :=
  shapeCast_apply x h _ _ (by
    rw [Shape.rowMajor_val_two, Shape.rowMajor_val_three]
    show r.val * 4096 + (128 * g.val + j.val) = (r.val * 32 + g.val) * 128 + j.val
    omega)

/-- A block of 256 x 32 x 128 viewed as 256 x 4096 reads, at (r, p), the block at (r, p / 128, p % 128). -/
theorem flat_at {α : Type} (y : S256x32x128.Idx → α) (h : S256x32x128.ShapeCasts S256x4096)
    (r : Fin 256) (p : Fin 4096) :
    shapeCast S256x4096 y h (ix2 r p)
      = y (ix3 r (⟨p.val / 128, by omega⟩ : Fin 32) (⟨p.val % 128, by omega⟩ : Fin 128)) :=
  shapeCast_apply y h _ _ (by
    rw [Shape.rowMajor_val_two, Shape.rowMajor_val_three]
    show (r.val * 32 + p.val / 128) * 128 + p.val % 128 = r.val * 4096 + p.val
    omega)

/-- A 256 x 32 array given a trailing unit axis reads, at (r, g, u), the array at (r, g). -/
theorem keep_at {α : Type} (y : S256x32.Idx → α) (h : S256x32.ShapeCasts S256x32x1)
    (r : Fin 256) (g : Fin 32) (u : Fin 1) :
    shapeCast S256x32x1 y h (ix3 r g u) = y (ix2 r g) :=
  shapeCast_apply y h _ _ (by
    have hu : u.val = 0 := by omega
    rw [Shape.rowMajor_val_two, Shape.rowMajor_val_three]
    show r.val * 32 + g.val = (r.val * 32 + g.val) * 1 + u.val
    omega)

/-- A 256 x 32 x 1 array spread along its unit axis reads, at (r, g, j), the array at (r, g, 0). -/
theorem spread_at {α : Type} (y : S256x32x1.Idx → α) (h : S256x32x1.Broadcasts S256x32x128)
    (r : Fin 256) (g : Fin 32) (j : Fin 128) :
    broadcastTo S256x32x128 y h (ix3 r g j) = y (ix3 r g (0 : Fin 1)) := by
  refine broadcastTo_apply y h (ix3 r g j) (ix3 r g (0 : Fin 1)) fun ax => ?_
  match ax with
  | ⟨0, _⟩ => rfl
  | ⟨1, _⟩ => rfl
  | ⟨2, _⟩ => rfl

/-! ## The maximum over a group's lanes -/

/-- The index over (r, g) with lane k put on the reduced axis is (r, g, k). -/
theorem lift_at (h : S256x32x128.Reduces [2] S256x32) (r : Fin 256) (g : Fin 32) (k : Fin 128) :
    h.lift (ix2 r g) k = ix3 r g k := by
  funext c
  match c with
  | ⟨0, _⟩ => rfl
  | ⟨1, _⟩ => rfl
  | ⟨2, _⟩ => rfl

/-- The maximum over a group's 128 lanes of the absolute values, started from minus infinity, is the
    specification's largest absolute value of that group. -/
theorem groupMax_at (v : FVec Ideal S256x32x128 .f32) (h : S256x32x128.Reduces [2] S256x32)
    (hφ : FKind.Formats .f32) (hacc : (0xFF800000#32 : BitVec 32) = 0xFF800000#32)
    (r : Fin 256) (g : Fin 32) :
    multiReduction .maximumf [2] S256x32 (absf v) 0xFF800000#32 h hφ hacc (ix2 r g)
      = Cert.Spec.absMax (fun j => v (ix3 r g j)) := by
  refine (Ideal.multiReduction_maximumf_single (absf v) 0xFF800000#32 h hφ hacc (ix2 r g)).trans ?_
  unfold Cert.Spec.absMax
  show (Finset.univ : Finset (Fin 128)).fold max (Ideal.ofBits .f32 0xFF800000#32)
      (fun k => absf v (h.lift (ix2 r g) k)) = _
  refine congrArg (fun f => (Finset.univ : Finset (Fin 128)).fold max (Ideal.ofBits .f32 0xFF800000#32) f) ?_
  refine funext fun (k : Fin 128) => ?_
  exact congrArg (absf v) (lift_at h r g k)

/-- The group maximum floored at eps and divided by seven, computed with a kept unit axis: at (r, g, u) it is that
    expression in the lanes of group (r, g). -/
theorem flooredMax_at (v : FVec Ideal S256x32x128 .f32) (h : S256x32x128.Reduces [2] S256x32)
    (hφ : FKind.Formats .f32) (hacc : (0xFF800000#32 : BitVec 32) = 0xFF800000#32)
    (hc : S256x32.ShapeCasts S256x32x1) (r : Fin 256) (g : Fin 32) (u : Fin 1) :
    divf (maximumf (shapeCast S256x32x1 (multiReduction .maximumf [2] S256x32 (absf v) 0xFF800000#32 h hφ hacc) hc)
        (broadcast S256x32x1 (Scalar.ofBits .f32 0x322BCC77#32)))
      (broadcast S256x32x1 (Scalar.ofBits .f32 0x40E00000#32)) (ix3 r g u)
    = Ideal.div (max (Cert.Spec.absMax (fun j => v (ix3 r g j))) (Cert.Spec.lit 0x322BCC77#32))
        (Cert.Spec.lit 0x40E00000#32) := by
  rw [divf_apply, maximumf_apply, broadcast_apply, broadcast_apply, keep_at, groupMax_at]
  rfl

/-! ## The viewed block and its groups -/

/-- The lanes of group g of row r of the block viewed as 256 x 32 x 128. -/
abbrev lanes (x : Vec Ideal S256x4096 .f32) (r : Fin 256) (g : Fin 32) : Fin 128 → EReal :=
  fun j => k0_pay2 (F := Ideal) x (ix3 r g j)

/-- The viewed block at (r, g, j) is the block at (r, 128 g + j). -/
theorem view_pay (x : Vec Ideal S256x4096 .f32) (r : Fin 256) (g : Fin 32) (j : Fin 128) :
    k0_pay2 (F := Ideal) x (ix3 r g j) = x (ix2 r ⟨128 * g.val + j.val, by omega⟩) := by
  unfold k0_pay2
  simp only [view_at, shapeCast_self]

/-- The lanes of group g of row r are the specification's group g of row r. -/
theorem lanes_eq (x : Vec Ideal S256x4096 .f32) (r : Fin 256) (g : Fin 32) :
    lanes x r g = Cert.Spec.grp (fun p' => x (ix2 r p')) g :=
  funext fun j => view_pay x r g j

/-! ## Base, quotient and remainder of a group -/

/-- The base at (r, g, u) is the specification's base of group (r, g). -/
theorem base_at (x : Vec Ideal S256x4096 .f32) (r : Fin 256) (g : Fin 32) (u : Fin 1) :
    k0_pay3 (F := Ideal) x (ix3 r g u) = Cert.Spec.base (lanes x r g) := by
  unfold k0_pay3 Cert.Spec.base Cert.Spec.pickBase
  simp only [select_apply, cmpf_apply, broadcast_apply]
  rw [flooredMax_at (k0_pay2 (F := Ideal) x)]
  simp only [Ideal.cmpf_def, Ideal.ofBits_def]

/-- The quotient at (r, g, j) is the specification's clipped rounded quotient of group (r, g) at lane j. -/
theorem quo_at (x : Vec Ideal S256x4096 .f32) (r : Fin 256) (g : Fin 32) (j : Fin 128) :
    k0_pay4 (F := Ideal) x (ix3 r g j) = Cert.Spec.quo (lanes x r g) j := by
  unfold k0_pay4 Cert.Spec.quo
  simp only [minimumf_apply, maximumf_apply, broadcast_apply, roundeven_at, divf_apply, spread_at, base_at,
    Ideal.ofBits_def]

/-- The remainder at (r, g, j) is the specification's remainder of group (r, g) at lane j. -/
theorem rem_at (x : Vec Ideal S256x4096 .f32) (r : Fin 256) (g : Fin 32) (j : Fin 128) :
    k0_pay5 (F := Ideal) x (ix3 r g j) = Cert.Spec.rem (lanes x r g) j := by
  unfold k0_pay5 Cert.Spec.rem
  simp only [subf_apply, mulf_apply, spread_at, base_at, quo_at]

/-! ## The rebuilt value -/

/-- The stored value at (r, p), for any base, quotient and remainder arrays: with g = p / 128 and j = p % 128, the
    base at (r, g) times the quotient at (r, g, j), plus the remainder at (r, g, j) over its group's step, rounded and
    clipped to [-8, 7], times that step. -/
theorem pay1_at (B : FVec Ideal S256x32x1 .f32) (Q R : FVec Ideal S256x32x128 .f32) (r : Fin 256) (p : Fin 4096) :
    k0_pay1 (F := Ideal) B Q R (ix2 r p)
      = B (ix3 r (⟨p.val / 128, by omega⟩ : Fin 32) (0 : Fin 1))
          * Q (ix3 r (⟨p.val / 128, by omega⟩ : Fin 32) (⟨p.val % 128, by omega⟩ : Fin 128))
        + min (Cert.Spec.lit 0x40E00000#32) (max (Cert.Spec.lit 0xC1000000#32)
            (Cert.Spec.rne (Ideal.div (R (ix3 r (⟨p.val / 128, by omega⟩ : Fin 32) (⟨p.val % 128, by omega⟩ : Fin 128)))
              (Ideal.div (max (Cert.Spec.absMax (fun k => R (ix3 r (⟨p.val / 128, by omega⟩ : Fin 32) k)))
                (Cert.Spec.lit 0x322BCC77#32)) (Cert.Spec.lit 0x40E00000#32)))))
          * Ideal.div (max (Cert.Spec.absMax (fun k => R (ix3 r (⟨p.val / 128, by omega⟩ : Fin 32) k)))
              (Cert.Spec.lit 0x322BCC77#32)) (Cert.Spec.lit 0x40E00000#32) := by
  unfold k0_pay1
  simp only [truncf_apply, flat_at, addf_apply, mulf_apply, minimumf_apply, maximumf_apply, broadcast_apply,
    roundeven_at, divf_apply]
  simp only [spread_at]
  rw [flooredMax_at R]
  simp only [Ideal.ofBits_def]

/-- The rebuilt block at row r and position p is the specification's rebuilt row r at p. -/
theorem rebuilt_apply (x : Vec Ideal S256x4096 .f32) (r : Fin 256) (p : Fin 4096) :
    rebuilt (F := Ideal) x (ix2 r p) = Cert.Spec.rowRecon (fun p' => x (ix2 r p')) p := by
  unfold rebuilt
  rw [pay1_at]
  simp only [base_at, quo_at, rem_at, lanes_eq]
  rfl

end Cert.KernelIdeal.Quant

end
-- ==== Proof.QuantArray.lean ====
/-
  The first kernel region's output array, entry by entry.

  The grid has 32 points. Point t reads rows 256 t .. 256 t + 255 of the 8192 x 4096 activations and writes the
  reconstruction of that block into the same rows of the output array; every point writes its block back, and the 32
  blocks tile the array. So what point t writes back is block t of ONE function of the whole activation array — row r
  rebuilt, at position p — and every row r lies in the block of point r / 256. Hence after the region the output array
  is that function: entry (r, p) is the rebuilt row r at position p.

  The entry-wise reading of the reconstruction of a block (row by row, the specification's rebuilt row) is taken as a
  hypothesis here.
-/
import proofs.«109478_j15118284882234_1_alg».proof.Proof.QuantBody
import proofs.«109478_j15118284882234_1_alg».proof.Proof.Spec
import Idealize.ShloMosaic.Lib.Pipeline.Value
import Idealize.ShloMosaic.Lib.ValueIdx

set_option maxRecDepth 16384

noncomputable section

namespace Cert.KernelIdeal.Quant

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-- The offsets of the whole block's rectangle are zero on both axes. -/
theorem zero_offsets : (![0, 0] : Fin 2 → Nat) = fun _ => 0 := funext fun a => by fin_cases a <;> rfl

/-- The rebuilt rows of the whole 8192 x 4096 array as the region finds it. -/
def rowsRebuilt (c : Dev nD) : S8192x4096.Idx → EReal :=
  fun i => Cert.Spec.rowRecon (fun p' => V c main_v0 (ix2 (⟨(i 0).val, (i 0).isLt⟩ : Fin 8192) p')) (⟨(i 1).val, (i 1).isLt⟩ : Fin 4096)

/-- The index maps over the grid: point t works on block (t, 0) of both arrays. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The input block at point t is rows 256 t .. 256 t + 255 of the activations. -/
theorem blockAt_in_apply (c : Dev nD) (t : Fin cfg0.N) (x : S256x4096.Idx) (k : S8192x4096.Idx)
    (hk0 : (k 0).val = 256 * t.val + (x 0).val) (hk1 : (k 1).val = (x 1).val) :
    (blockAt V c 0 t : Vec Ideal S256x4096 .f32) x = (V c main_v0 : S8192x4096.Idx → EReal) k := by
  obtain ⟨e0, e1, -, -⟩ := idx_facts t
  unfold blockAt
  rw [View.read_apply]
  show V c main_v0 _ = V c main_v0 _
  congr 1
  funext a
  apply Fin.ext
  match a with
  | ⟨0, _⟩ => show win0_0.index t (0 : Fin 2) * 256 + 1 * (x 0).val = (k 0).val; rw [e0, hk0]; omega
  | ⟨1, _⟩ => show win0_0.index t (1 : Fin 2) * 4096 + 1 * (x 1).val = (k 1).val; rw [e1, hk1]; omega

/-- The entry-wise reading of the reconstruction at any index of the block: row (y 0) rebuilt at position (y 1). -/
theorem rebuilt_at
    (hspec : ∀ (x : Vec Ideal S256x4096 .f32) (r : Fin 256) (p : Fin 4096),
      rebuilt (F := Ideal) x (ix2 r p) = Cert.Spec.rowRecon (fun p' => x (ix2 r p')) p)
    (x0 : Vec Ideal S256x4096 .f32) (y : S256x4096.Idx) :
    rebuilt (F := Ideal) x0 y
      = Cert.Spec.rowRecon (fun p' => x0 (ix2 (⟨(y 0).val, (y 0).isLt⟩ : Fin 256) p')) (⟨(y 1).val, (y 1).isLt⟩ : Fin 4096) := by
  obtain ⟨r, p, rfl⟩ : ∃ (r : Fin 256) (p : Fin 4096), y = ix2 r p := ⟨y 0, y 1, eq_ix2 y⟩
  exact hspec x0 r p

/-- What point t writes back is block t of the rebuilt rows. -/
theorem flushed_eq
    (hspec : ∀ (x : Vec Ideal S256x4096 .f32) (r : Fin 256) (p : Fin 4096),
      rebuilt (F := Ideal) x (ix2 r p) = Cert.Spec.rowRecon (fun p' => x (ix2 r p')) p)
    (c : Dev nD) (t : Fin cfg0.N) :
    (dat (F := Ideal) V c).flushed 1 t = ((cfg0.win 1).blk t).view.read (Elt Ideal) (rowsRebuilt V c) := by
  show (cfg0.win 1).cut (grid0.coords t) ((dat (F := Ideal) V c).after 1 t) = _
  rw [after_out]
  unfold stored
  rw [View.canon_unit_zero zero_offsets]
  simp only [View.ld_unit_zero (S := S256x4096) zero_offsets]
  obtain ⟨-, -, e0, e1⟩ := idx_facts t
  funext y
  show rebuilt (F := Ideal) (blockAt V c 0 t) y = rowsRebuilt V c (((cfg0.win 1).blk t).view.emb y)
  refine (rebuilt_at hspec _ y).trans ?_
  unfold rowsRebuilt
  have hy0 : (y 0).val < 256 := (y 0).isLt
  have hy1 : (y 1).val < 4096 := (y 1).isLt
  have h0 : ((((cfg0.win 1).blk t).view.emb y) 0).val = 256 * t.val + (y 0).val := by
    show win0_1.index t (0 : Fin 2) * 256 + 1 * (y 0).val = _; rw [e0]; omega
  have h1 : ((((cfg0.win 1).blk t).view.emb y) 1).val = (y 1).val := by
    show win0_1.index t (1 : Fin 2) * 4096 + 1 * (y 1).val = _; rw [e1]; omega
  refine congrArg₂ Cert.Spec.rowRecon (funext fun p' => ?_) (Fin.ext h1.symm)
  exact blockAt_in_apply V c t _ _ h0 rfl

/-- An index of the array is in point t's block iff each coordinate is in the block's range on its axis. -/
theorem mem_blk (t : Fin cfg0.N) (i : S8192x4096.Idx) :
    i ∈ ((cfg0.win 1).blk t).view.set
      ↔ ∀ a : Fin 2, win0_1.index t a * S256x4096.size a ≤ (i a).val ∧ (i a).val < win0_1.index t a * S256x4096.size a + S256x4096.size a := by
  show i ∈ ((View.whole main_v1).slice (win0_1.rect t)).set ↔ _
  rw [View.set_slice_whole, Rect.mem_set_unit]
  exact Iff.rfl

/-- Every row lies in the block of the point (row / 256): the 32 blocks tile the array. -/
theorem covered (i : S8192x4096.Idx) :
    ∃ t : Fin cfg0.N, (cfg0.win 1).flush t = true ∧ i ∈ ((cfg0.win 1).blk t).view.set := by
  have hi0 : (i 0).val < 8192 := (i 0).isLt
  have hi1 : (i 1).val < 4096 := (i 1).isLt
  have hN : cfg0.N = 32 := N_0
  let t : Fin cfg0.N := ⟨(i 0).val / 256, by rw [hN]; omega⟩
  have ht : t.val = (i 0).val / 256 := rfl
  obtain ⟨-, -, e0, e1⟩ := idx_facts t
  refine ⟨t, flush0_1 t, ?_⟩
  rw [mem_blk]
  intro a
  match a with
  | ⟨0, _⟩ => show win0_1.index t (0 : Fin 2) * 256 ≤ (i 0).val ∧ (i 0).val < win0_1.index t (0 : Fin 2) * 256 + 256; rw [e0, ht]; omega
  | ⟨1, _⟩ => show win0_1.index t (1 : Fin 2) * 4096 ≤ (i 1).val ∧ (i 1).val < win0_1.index t (1 : Fin 2) * 4096 + 4096; rw [e1]; omega

/-- After the region the output array is, entry by entry, the rebuilt row. -/
theorem out_array (V : (c : Dev nD) → (b : Ref sig .tc) → Buf (Elt Ideal) ((c : Thread nD τ).loc b)) (c : Dev nD)
    (hspec : ∀ (x : Vec Ideal S256x4096 .f32) (r : Fin 256) (p : Fin 4096),
        rebuilt (F := Ideal) x (ix2 r p) = Cert.Spec.rowRecon (fun p' => x (ix2 r p')) p)
    (r : Fin 8192) (p : Fin 4096) :
    (dat (F := Ideal) V c).arrAt 1 cfg0.N (ix2 r p) = Cert.Spec.rowRecon (fun p' => V c main_v0 (ix2 r p')) p :=
  congrFun ((dat (F := Ideal) V c).arrAt_eq_of_cover 1 (rowsRebuilt V c) (fun t _ => flushed_eq V hspec c t) covered) (ix2 r p)

end Cert.KernelIdeal.Quant

end
-- ==== Proof.LibDotPlain.lean ====
/-
  The plain matrix product read at one entry.

  The dimension numbers `DotDims.plain M K N` describe an M × K array times a K × N array with no batch axis: the left
  factor's axis 1 is contracted with the right factor's axis 0, the left factor's axis 0 becomes the result's rows and
  the right factor's axis 1 its columns. At result entry (i, j) and contraction position k the left factor is therefore
  read at (i, c) and the right factor at (c, j), where c is the one coordinate of k (the contraction index set has a
  single axis, of extent K). Summing over k is the same as summing over c, so over the extended reals the entry is

      ∑ q : Fin K, A (i, q) · B (q, j),

  one sum of products in which no law of the extended reals is used: only the index set of the sum is renamed. This holds
  for the kernel's product accumulated into an all-zero array (`matmul_zero_plain`) and for the host's product, which
  has no accumulator (`dotGeneral_plain`), whatever precision or schedule they are annotated with.
-/
import Idealize.ShloMosaic.PureOps.Ideal.Laws
import Idealize.ShloMosaic.Lib.ValueIdx

noncomputable section

open scoped BigOperators

namespace Cert.LibDotPlain

open Idealize.ShloMosaic Idealize.ShloMosaic.ValueIdx

variable {M K N : Nat}

/-! ## The one coordinate of a contraction position -/

/-- The contraction index set of the plain product is a single axis of extent `K`; `col k` is the coordinate of the
    position `k` along it, as a number below `K`. -/
def col (k : (DotDims.plain M K N).contr.Idx) : Fin K := contrEquiv1 (DotDims.plain M K N) K rfl rfl k

/-- Positions and coordinates correspond one to one, so a sum over the coordinates, read at `col k`, is a sum over
    the positions. -/
theorem sum_col {β : Type*} [AddCommMonoid β] (f : Fin K → β) :
    ∑ k : (DotDims.plain M K N).contr.Idx, f (col k) = ∑ q : Fin K, f q :=
  Equiv.sum_comp (contrEquiv1 (DotDims.plain M K N) K rfl rfl) f

/-- `col k` as a number: the position's entry on the contraction set's axis 0. -/
theorem col_val (k : (DotDims.plain M K N).contr.Idx) : (col k).val = (k ⟨0, Nat.one_pos⟩).val := rfl

/-! ## The four coordinates the two factors are read at

Each is stated at the literal axis, for any result index `e` and any contraction position `k`. -/

/-- The left factor's row is the result's row: axis 0 of the left factor is its one free axis, the first of the
    result's axes. -/
theorem left_row (e : (⟨2, ![M, N]⟩ : Shape).Idx) (k : (DotDims.plain M K N).contr.Idx) :
    ((DotDims.plain M K N).lhsIdx e k 0).val = (e 0).val := rfl

/-- The left factor's column is the contraction coordinate: axis 1 of the left factor is its one contracted axis. -/
theorem left_col (e : (⟨2, ![M, N]⟩ : Shape).Idx) (k : (DotDims.plain M K N).contr.Idx) :
    ((DotDims.plain M K N).lhsIdx e k 1).val = (col k).val :=
  (DotDims.plain M K N).lhsIdx_val_of_single (cl := 1) rfl e k

/-- The right factor's row is the contraction coordinate: axis 0 of the right factor is its one contracted axis. -/
theorem right_row (e : (⟨2, ![M, N]⟩ : Shape).Idx) (k : (DotDims.plain M K N).contr.Idx) :
    ((DotDims.plain M K N).rhsIdx e k 0).val = (col k).val :=
  (DotDims.plain M K N).rhsIdx_val_of_single (cr := 0) rfl e k

/-- The right factor's column is the result's column: axis 1 of the right factor is its one free axis, which comes
    second among the result's axes, after the left factor's free axis. -/
theorem right_col (e : (⟨2, ![M, N]⟩ : Shape).Idx) (k : (DotDims.plain M K N).contr.Idx) :
    ((DotDims.plain M K N).rhsIdx e k 1).val = (e 1).val := rfl

/-! ## The two operand indices at entry (i, j) -/

/-- At result entry (i, j) and contraction position `k` the left factor is read at (i, `col k`). -/
theorem left_at (i : Fin M) (j : Fin N) (k : (DotDims.plain M K N).contr.Idx) :
    (DotDims.plain M K N).lhsIdx (ix2 i j) k = ix2 i (col k) := by
  funext a
  apply Fin.ext
  match a with
  | ⟨0, _⟩ => exact left_row (ix2 i j) k
  | ⟨1, _⟩ => exact left_col (ix2 i j) k

/-- At result entry (i, j) and contraction position `k` the right factor is read at (`col k`, j). -/
theorem right_at (i : Fin M) (j : Fin N) (k : (DotDims.plain M K N).contr.Idx) :
    (DotDims.plain M K N).rhsIdx (ix2 i j) k = ix2 (col k) j := by
  funext a
  apply Fin.ext
  match a with
  | ⟨0, _⟩ => exact right_row (ix2 i j) k
  | ⟨1, _⟩ => exact right_col (ix2 i j) k

/-- The sum over contraction positions of the factors' products at entry (i, j) is the sum over q of
    A (i, q) · B (q, j): each term is read at (i, `col k`) and (`col k`, j), and the positions are renamed by their
    coordinates. -/
theorem sum_products {φ₁ φ₂ : FTy} (A : FVec Ideal ⟨2, ![M, K]⟩ φ₁) (B : FVec Ideal ⟨2, ![K, N]⟩ φ₂)
    (i : Fin M) (j : Fin N) :
    ∑ k : (DotDims.plain M K N).contr.Idx,
        A ((DotDims.plain M K N).lhsIdx (ix2 i j) k) * B ((DotDims.plain M K N).rhsIdx (ix2 i j) k)
      = ∑ q : Fin K, A (ix2 i q) * B (ix2 q j) := by
  rw [← sum_col (M := M) (N := N) fun q => A (ix2 i q) * B (ix2 q j)]
  exact Finset.sum_congr rfl fun k _ => by rw [left_at, right_at]

/-! ## The two products at an entry -/

/-- The kernel's M × K by K × N product accumulated into the all-zero M × N array, at the ideal values and at entry
    (i, j): the sum over q of A (i, q) · B (q, j). The zero accumulator adds nothing and the precision annotation
    plays no part. -/
theorem matmul_zero_plain (M K N : Nat) {φ₁ φ₂ : FTy} (prec : Option ContractPrecision)
    (A : FVec Ideal ⟨2, ![M, K]⟩ φ₁) (B : FVec Ideal ⟨2, ![K, N]⟩ φ₂) (i : Fin M) (j : Fin N) :
    FloatOps.matmul (DotDims.plain M K N) prec A B (constant ⟨2, ![M, N]⟩ .f32 0x00000000#32) (ix2 i j)
      = ∑ q : Fin K, A (ix2 i q) * B (ix2 q j) :=
  (Ideal.matmul_constant_zero_apply (DotDims.plain M K N) prec A B (ix2 i j)).trans (sum_products A B i j)

/-- The host's M × K by K × N product, at the ideal values and at entry (i, j): the sum over q of
    A (i, q) · B (q, j), whatever the precision annotation and the schedule. -/
theorem dotGeneral_plain (M K N : Nat) {φ₁ φ₂ : FTy} (prec : Option ContractPrecision) (sched : HostSchedule)
    (A : FVec Ideal ⟨2, ![M, K]⟩ φ₁) (B : FVec Ideal ⟨2, ![K, N]⟩ φ₂) (i : Fin M) (j : Fin N) :
    FloatOps.dotGeneral (DotDims.plain M K N) prec sched A B (ix2 i j)
      = ∑ q : Fin K, A (ix2 i q) * B (ix2 q j) :=
  (Ideal.dotGeneral_apply (DotDims.plain M K N) prec sched A B (ix2 i j)).trans (sum_products A B i j)

end Cert.LibDotPlain
-- ==== Proof.MatmulPayloads.lean ====
/-
  The second kernel's stored values read at one entry, and a sum over 4096 positions cut into its four blocks.

  The second kernel computes one 1024 x 1024 tile of a matrix product with a bias. The contraction axis has 4096
  positions and is walked in 4 steps of 1024. At the first step an accumulator tile is reset to zero; at every step the
  product of a 1024 x 1024 activation tile with the TRANSPOSE of a 1024 x 1024 weight tile is added to it; after the last
  step the bias row is added to every row and the result is stored.

  At the ideal values each of these three stored tiles, read at the entry (r, o), is:

    reset        0
    accumulate   s (r, o) + ∑ j, a (r, j) · b (o, j)        (row r of the activations against ROW o of the weights:
                                                             the weight tile is transposed before the product, and
                                                             the product's own accumulator is the zero tile)
    add bias     s (r, o) + bias (0, o)                      (the 1 x 1024 bias row repeated down the 1024 rows)

  The shape casts around the operands go from a shape to itself and change nothing. No law of the extended reals is
  used for these three readings beyond 0 + x = x inside the product.

  Last, the order of accumulation: starting from zero and adding the four block sums, block 0 first, gives the sum over
  all 4096 positions. A sum over 4096 = 3072 + 1024 positions is the sum over the first 3072 plus the sum over the last
  1024, and likewise 3072 = 2048 + 1024 and 2048 = 1024 + 1024; nothing but the splitting of a finite sum over an
  initial segment and the rest, and 0 + x = x, is used.
-/
import proofs.«109478_j15118284882234_1_alg».proof.Proof.Gen.KernelIdeal.Skeleton
import proofs.«109478_j15118284882234_1_alg».proof.Proof.LibDotPlain
import Idealize.ShloMosaic.PureOps.Ideal.Laws
import Idealize.ShloMosaic.Lib.ValueIdx
import Idealize.ShloMosaic.Lib.ValueLayout
import Idealize.ShloMosaic.Lib.Pipeline.Value
import Mathlib.Algebra.BigOperators.Fin

noncomputable section

namespace Cert.KernelIdeal.Matmul

open Cert.KernelIdeal Cert.KernelIdeal.Gen Idealize.ShloMosaic Idealize.ShloMosaic.ValueIdx
open scoped BigOperators

/-! ## The reset -/

/-- The accumulator's reset value is zero everywhere. -/
theorem reset_apply (r o : Fin 1024) : k1_pay1 (F := Ideal) (ix2 r o) = 0 :=
  (congrFun (shapeCast_self (broadcast S1024x1024 (Scalar.ofBits (F := Ideal) .f32 0x00000000#32))
    shapeCasts_S1024x1024_S1024x1024) (ix2 r o)).trans Ideal.ofBits_zero_f32

/-! ## One accumulation step -/

/-- The kernel's dimension numbers are those of the plain 1024 x 1024 by 1024 x 1024 product: the same six lists. -/
theorem dot_eq_plain : dot_S1024x1024_S1024x1024_S1024x1024_1_0_0_1_n_n = DotDims.plain 1024 1024 1024 := rfl

/-- The product inside the step, at entry (r, o): row r of the activation tile against row o of the weight tile. -/
theorem product_apply (a b : FVec Ideal S1024x1024 .bf16) (r o : Fin 1024) :
    FloatOps.matmul (F := Ideal) dot_S1024x1024_S1024x1024_S1024x1024_1_0_0_1_n_n none
        (shapeCast S1024x1024 a shapeCasts_S1024x1024_S1024x1024)
        (transpose S1024x1024 [1, 0] (shapeCast S1024x1024 b shapeCasts_S1024x1024_S1024x1024)
          transposes_S1024x1024_p1_0_S1024x1024)
        (constant S1024x1024 .f32 0x00000000#32) (ix2 r o)
      = ∑ j : Fin 1024, a (ix2 r j) * b (ix2 o j) := by
  rw [dot_eq_plain]
  refine (Cert.LibDotPlain.matmul_zero_plain 1024 1024 1024 none _ _ r o).trans ?_
  refine Finset.sum_congr rfl fun j _ => ?_
  rw [shapeCast_self, transpose_ix2_apply, shapeCast_self]

/-- One accumulation step: the old accumulator plus the products of row r of the activation tile with ROW o of the
    weight tile (the tile is transposed before the product). -/
theorem accumulate_apply (s : Vec Ideal S1024x1024 .f32) (a b : Vec Ideal S1024x1024 .bf16) (r o : Fin 1024) :
    k1_pay2 s a b (ix2 r o) = s (ix2 r o) + ∑ j : Fin 1024, a (ix2 r j) * b (ix2 o j) := by
  unfold k1_pay2
  refine (congrFun (shapeCast_self _ shapeCasts_S1024x1024_S1024x1024) (ix2 r o)).trans ?_
  exact congrArg (s (ix2 r o) + ·) (product_apply a b r o)

/-! ## The epilogue -/

/-- The epilogue: the accumulator plus the bias row broadcast down the rows. -/
theorem add_bias_apply (s : Vec Ideal S1024x1024 .f32) (bias : Vec Ideal S1x1024 .f32) (r o : Fin 1024) :
    k1_pay3 s bias (ix2 r o) = s (ix2 r o) + bias (ix2 0 o) := by
  refine congrArg (s (ix2 r o) + ·) ?_
  refine (broadcastTo_apply (shapeCast S1x1024 bias shapeCasts_S1x1024_S1x1024) broadcasts_S1x1024_S1024x1024
    (ix2 r o) (ix2 0 o) fun c => match c with | ⟨0, _⟩ => rfl | ⟨1, _⟩ => rfl).trans ?_
  rw [shapeCast_self]

/-! ## The four blocks of the contraction axis -/

/-- A sum over 4096 positions is the four block sums added in order onto zero (addition on the extended reals is
    commutative and associative; nothing else is used). -/
theorem sum_four_blocks (f : Fin 4096 → EReal) :
    (((0 + ∑ j : Fin 1024, f ⟨j.val, by omega⟩) + ∑ j : Fin 1024, f ⟨1024 + j.val, by omega⟩)
        + ∑ j : Fin 1024, f ⟨2048 + j.val, by omega⟩) + ∑ j : Fin 1024, f ⟨3072 + j.val, by omega⟩
      = ∑ p : Fin 4096, f p := by
  have h4 : ∑ p : Fin 4096, f p
      = ∑ i : Fin 3072, f ⟨i.val, by omega⟩ + ∑ j : Fin 1024, f ⟨3072 + j.val, by omega⟩ :=
    Fin.sum_univ_add (a := 3072) (b := 1024) f
  have h3 : ∑ i : Fin 3072, f ⟨i.val, by omega⟩
      = ∑ i : Fin 2048, f ⟨i.val, by omega⟩ + ∑ j : Fin 1024, f ⟨2048 + j.val, by omega⟩ :=
    Fin.sum_univ_add (a := 2048) (b := 1024) fun i : Fin 3072 => f ⟨i.val, by omega⟩
  have h2 : ∑ i : Fin 2048, f ⟨i.val, by omega⟩
      = ∑ j : Fin 1024, f ⟨j.val, by omega⟩ + ∑ j : Fin 1024, f ⟨1024 + j.val, by omega⟩ :=
    Fin.sum_univ_add (a := 1024) (b := 1024) fun i : Fin 2048 => f ⟨i.val, by omega⟩
  rw [h4, h3, h2, zero_add]

end Cert.KernelIdeal.Matmul

end
-- ==== Proof.MatmulArray.lean ====
/-
  The second kernel region over its whole grid: what it leaves in the output array.

  The grid is 8 x 11 x 4, the last coordinate running fastest, so point t (0 <= t < 352) has tile row t / 44, tile
  column (t / 4) % 11 and step t % 4 along the contraction axis. At point t the region works on
    the activation tile (t / 44, t % 4)        of the activation array A [8192, 4096],
    the weight tile     ((t / 4) % 11, t % 4)  of the weight array W [11264, 4096],
    the bias segment    (0, (t / 4) % 11)      of the bias row b [1, 11264],
    the output tile     (t / 44, (t / 4) % 11) of the output array [8192, 11264],
  all tiles 1024 x 1024 (the bias segment 1 x 1024): entry (r', j) of a tile with block index (m, k) is entry
  (1024 m + r', 1024 k + j) of its array.

  Fix an output entry (R, O) = (1024 m + r', 1024 n + o') and write f p = A (R, p) * W (O, p) for the contribution
  of position p. The four points of tile (m, n) are t0, t0 + 1, t0 + 2, t0 + 3 with t0 = 44 m + 4 n. At step k the
  activation tile's row r' and the weight tile's row o' hold A (R, 1024 k + j) and W (O, 1024 k + j), so the step
  adds  ∑ j < 1024, f (1024 k + j)  to the accumulator at (r', o'); step 0 adds it onto zero. After step 3 the
  accumulator is
      (((0 + ∑ j, f j) + ∑ j, f (1024 + j)) + ∑ j, f (2048 + j)) + ∑ j, f (3072 + j)  =  ∑ p < 4096, f p,
  and the output tile receives that plus b (0, O). Only the last step of a tile writes the tile back, and every entry
  (R, O) of the output array lies in exactly the tile (R / 1024, O / 1024), written back at point
  44 (R / 1024) + 4 (O / 1024) + 3. So after the region the output array at (R, O) is  (∑ p, A (R, p) * W (O, p)) + b (0, O).
-/
import proofs.«109478_j15118284882234_1_alg».proof.Proof.MatmulBody
import proofs.«109478_j15118284882234_1_alg».proof.Proof.MatmulPayloads
import Idealize.ShloMosaic.Lib.Pipeline.Value
import Idealize.ShloMosaic.Lib.ValueIdx

set_option maxRecDepth 16384

noncomputable section

namespace Cert.KernelIdeal.Matmul

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

/-! ## The grid's points and the four index maps in closed form -/

/-- Point t of the 8 x 11 x 4 grid, the last coordinate running fastest, has tile row t / 44, tile column
    (t / 4) % 11 and step t % 4; the four index maps read off the block indices from these. -/
theorem grid_index : ∀ t : Fin cfg1.N,
      win1_0.index t (0 : Fin 2) = t.val / 44 ∧ win1_0.index t (1 : Fin 2) = t.val % 4
    ∧ win1_1.index t (0 : Fin 2) = t.val / 4 % 11 ∧ win1_1.index t (1 : Fin 2) = t.val % 4
    ∧ win1_2.index t (0 : Fin 2) = 0 ∧ win1_2.index t (1 : Fin 2) = t.val / 4 % 11
    ∧ win1_3.index t (0 : Fin 2) = t.val / 44 ∧ win1_3.index t (1 : Fin 2) = t.val / 4 % 11 :=
  (by decide +kernel : ∀ t : Fin grid1.N, _)

variable (V : (c : Dev nD) → (b : Ref sig .tc) → Buf (Elt Ideal) ((c : Thread nD τ).loc b))

/-! ## The three input blocks read off their arrays -/

/-- The activation tile at point t: rows 1024 (t / 44) .., columns 1024 (t % 4) .. of the activation array. -/
theorem act_block_apply (c : Dev nD) (t : Fin cfg1.N) (r' j : Fin 1024) (R : Fin 8192) (P : Fin 4096)
    (hR : R.val = 1024 * (t.val / 44) + r'.val) (hP : P.val = 1024 * (t.val % 4) + j.val) :
    (blockAt V c 0 t : Vec Ideal S1024x1024 .bf16) (ix2 r' j) = (V c main_v1 : S8192x4096.Idx → EReal) (ix2 R P) := by
  obtain ⟨e0, e1, -⟩ := grid_index t
  unfold blockAt
  rw [View.read_apply]
  show V c main_v1 _ = V c main_v1 _
  congr 1
  funext a
  apply Fin.ext
  match a with
  | ⟨0, _⟩ => show win1_0.index t (0 : Fin 2) * 1024 + 1 * r'.val = R.val; rw [e0, hR]; omega
  | ⟨1, _⟩ => show win1_0.index t (1 : Fin 2) * 1024 + 1 * j.val = P.val; rw [e1, hP]; omega

/-- The weight tile at point t: rows 1024 ((t / 4) % 11) .., columns 1024 (t % 4) .. of the weight array. -/
theorem wgt_block_apply (c : Dev nD) (t : Fin cfg1.N) (o' j : Fin 1024) (O : Fin 11264) (P : Fin 4096)
    (hO : O.val = 1024 * (t.val / 4 % 11) + o'.val) (hP : P.val = 1024 * (t.val % 4) + j.val) :
    (blockAt V c 1 t : Vec Ideal S1024x1024 .bf16) (ix2 o' j) = (V c main_v3 : S11264x4096.Idx → EReal) (ix2 O P) := by
  obtain ⟨-, -, e0, e1, -⟩ := grid_index t
  unfold blockAt
  rw [View.read_apply]
  show V c main_v3 _ = V c main_v3 _
  congr 1
  funext a
  apply Fin.ext
  match a with
  | ⟨0, _⟩ => show win1_1.index t (0 : Fin 2) * 1024 + 1 * o'.val = O.val; rw [e0, hO]; omega
  | ⟨1, _⟩ => show win1_1.index t (1 : Fin 2) * 1024 + 1 * j.val = P.val; rw [e1, hP]; omega

/-- The bias segment at point t: columns 1024 ((t / 4) % 11) .. of the bias row. -/
theorem bias_block_apply (c : Dev nD) (t : Fin cfg1.N) (o' : Fin 1024) (O : Fin 11264)
    (hO : O.val = 1024 * (t.val / 4 % 11) + o'.val) :
    (blockAt V c 2 t : Vec Ideal S1x1024 .f32) (ix2 0 o') = (V c main_v5 : S1x11264.Idx → EReal) (ix2 0 O) := by
  obtain ⟨-, -, -, -, e0, e1, -⟩ := grid_index t
  unfold blockAt
  rw [View.read_apply]
  show V c main_v5 _ = V c main_v5 _
  congr 1
  funext a
  apply Fin.ext
  match a with
  | ⟨0, _⟩ => show win1_2.index t (0 : Fin 2) * 1 + 1 * 0 = 0; rw [e0]
  | ⟨1, _⟩ => show win1_2.index t (1 : Fin 2) * 1024 + 1 * o'.val = O.val; rw [e1, hO]; omega

/-! ## The three arrays, and the products summed at an output entry -/

/-- The activation array [8192, 4096] as the region finds it, -/
abbrev actArr (c : Dev nD) : S8192x4096.Idx → EReal := V c main_v1
/-- the weight array [11264, 4096], -/
abbrev wgtArr (c : Dev nD) : S11264x4096.Idx → EReal := V c main_v3
/-- and the bias row [1, 11264]. -/
abbrev biasArr (c : Dev nD) : S1x11264.Idx → EReal := V c main_v5

/-- What position p of the contraction axis contributes to the output entry (R, O): activation (R, p) times
    weight (O, p). -/
def term (c : Dev nD) (R : Fin 8192) (O : Fin 11264) (p : Fin 4096) : EReal :=
  actArr V c (ix2 R p) * wgtArr V c (ix2 O p)

/-! ## The accumulator along the four steps of a tile -/

/-- One step at a tile's entry (r', o'), the tile sitting at array entry (R, O): the new accumulator is the old one
    plus the 1024 contributions of this step's block of positions, pos j being the position of the block's j-th. -/
theorem acc_step (c : Dev nD) (t : Fin cfg1.N) (s : Vec Ideal S1024x1024 .f32) (r' o' : Fin 1024)
    (R : Fin 8192) (O : Fin 11264) (pos : Fin 1024 → Fin 4096)
    (hR : R.val = 1024 * (t.val / 44) + r'.val) (hO : O.val = 1024 * (t.val / 4 % 11) + o'.val)
    (hpos : ∀ j, (pos j).val = 1024 * (t.val % 4) + j.val) :
    k1_pay2 s (blockAt V c 0 t) (blockAt V c 1 t) (ix2 r' o')
      = s (ix2 r' o') + ∑ j : Fin 1024, term V c R O (pos j) := by
  refine (accumulate_apply s (blockAt V c 0 t) (blockAt V c 1 t) r' o').trans ?_
  refine congrArg (s (ix2 r' o') + ·) (Finset.sum_congr rfl fun j _ => ?_)
  rw [act_block_apply V c t r' j R (pos j) hR (hpos j), wgt_block_apply V c t o' j O (pos j) hO (hpos j)]
  rfl

/-- At the first step of a tile the accumulator is this step's contributions added onto zero. -/
theorem acc_first_apply (c : Dev nD) (n : ℕ) (hn : n < cfg1.N) (h0 : n % 4 = 0) (r' o' : Fin 1024)
    (R : Fin 8192) (O : Fin 11264) (pos : Fin 1024 → Fin 4096)
    (hR : R.val = 1024 * (n / 44) + r'.val) (hO : O.val = 1024 * (n / 4 % 11) + o'.val)
    (hpos : ∀ j, (pos j).val = 1024 * (n % 4) + j.val) :
    accAfter V c n hn (ix2 r' o') = 0 + ∑ j : Fin 1024, term V c R O (pos j) := by
  rw [accAfter_first V c ⟨n, hn⟩ h0]
  refine (acc_step V c ⟨n, hn⟩ _ r' o' R O pos hR hO hpos).trans ?_
  rw [reset_apply]

/-- At a later step it is what the step before left plus this step's contributions. -/
theorem acc_next_apply (c : Dev nD) (m : ℕ) (hm : m < cfg1.N) (n : ℕ) (hmn : m = n + 1) (h0 : ¬m % 4 = 0) (r' o' : Fin 1024)
    (R : Fin 8192) (O : Fin 11264) (pos : Fin 1024 → Fin 4096)
    (hR : R.val = 1024 * (m / 44) + r'.val) (hO : O.val = 1024 * (m / 4 % 11) + o'.val)
    (hpos : ∀ j, (pos j).val = 1024 * (m % 4) + j.val) :
    accAfter V c m hm (ix2 r' o')
      = accAfter V c n (by omega) (ix2 r' o') + ∑ j : Fin 1024, term V c R O (pos j) := by
  subst hmn
  rw [accAfter_next V c ⟨n + 1, hm⟩ h0]
  exact acc_step V c ⟨n + 1, hm⟩ _ r' o' R O pos hR hO hpos

/-- After the fourth step of a tile the accumulator at (r', o') is the sum over all 4096 positions. -/
theorem acc_tile (c : Dev nD) (n : ℕ) (hn : n + 3 < cfg1.N) (h0 : n % 4 = 0) (r' o' : Fin 1024)
    (R : Fin 8192) (O : Fin 11264)
    (hR : R.val = 1024 * (n / 44) + r'.val) (hO : O.val = 1024 * (n / 4 % 11) + o'.val) :
    accAfter V c (n + 3) hn (ix2 r' o') = ∑ p : Fin 4096, term V c R O p := by
  rw [acc_next_apply V c (n + 3) hn (n + 2) rfl (by omega) r' o' R O (fun j => ⟨3072 + j.val, by omega⟩)
      (by omega) (by omega) (fun j => by show 3072 + j.val = _; omega),
    acc_next_apply V c (n + 2) (by omega) (n + 1) rfl (by omega) r' o' R O (fun j => ⟨2048 + j.val, by omega⟩)
      (by omega) (by omega) (fun j => by show 2048 + j.val = _; omega),
    acc_next_apply V c (n + 1) (by omega) n rfl (by omega) r' o' R O (fun j => ⟨1024 + j.val, by omega⟩)
      (by omega) (by omega) (fun j => by show 1024 + j.val = _; omega),
    acc_first_apply V c n (by omega) h0 r' o' R O (fun j => ⟨j.val, by omega⟩)
      hR hO (fun j => by show j.val = _; omega)]
  exact sum_four_blocks (term V c R O)

/-! ## What the region leaves in the output array -/

/-- The product with bias, entry by entry: at (R, O) the sum over the 4096 positions p of activation (R, p) times
    weight (O, p), plus bias (0, O). -/
def prodBias (c : Dev nD) : S8192x11264.Idx → EReal :=
  fun i => (∑ p : Fin 4096, term V c (i 0) (i 1) p) + biasArr V c (ix2 0 (i 1))

/-- What the output tile's buffer holds after a last step, at (r', o'): the product with bias at the tile's array
    entry (R, O). -/
theorem out_tile_apply (c : Dev nD) (t : Fin cfg1.N) (h3 : t.val % 4 = 3) (r' o' : Fin 1024)
    (R : Fin 8192) (O : Fin 11264)
    (hR : R.val = 1024 * (t.val / 44) + r'.val) (hO : O.val = 1024 * (t.val / 4 % 11) + o'.val) :
    outAfter V c t (ix2 r' o') = prodBias V c (ix2 R O) := by
  unfold outAfter
  refine (add_bias_apply _ _ r' o').trans ?_
  obtain ⟨tv, ht⟩ := t
  have h3' : tv % 4 = 3 := h3
  have hR' : R.val = 1024 * (tv / 44) + r'.val := hR
  have hO' : O.val = 1024 * (tv / 4 % 11) + o'.val := hO
  obtain ⟨n, rfl⟩ : ∃ n, tv = n + 3 := ⟨tv - 3, by omega⟩
  rw [acc_tile V c n ht (by omega) r' o' R O (by omega) (by omega), bias_block_apply V c ⟨n + 3, ht⟩ o' O hO]
  rfl

/-- What a last step writes back is its block of the product with bias. -/
theorem written_back_eq (c : Dev nD) (t : Fin cfg1.N) (hf : (cfg1.win 3).flush t = true) :
    (dat V c).flushed 3 t = ((cfg1.win 3).blk t).view.read (Elt Ideal) (prodBias V c) := by
  have h3 : t.val % 4 = 3 := (flush1_3 t).mp hf
  have ht : t.val < 352 := lt_of_lt_of_eq t.isLt (show cfg1.N = 352 from N_1)
  obtain ⟨-, -, -, -, -, -, e0, e1⟩ := grid_index t
  show (cfg1.win 3).cut (grid1.coords t) ((dat V c).after 3 t) = _
  rw [after_3]
  funext y
  obtain ⟨r', o', rfl⟩ : ∃ (r' o' : Fin 1024), y = ix2 r' o' := ⟨y 0, y 1, eq_ix2 y⟩
  have hr : r'.val < 1024 := r'.isLt
  have ho : o'.val < 1024 := o'.isLt
  show outAfter V c t (ix2 r' o') = prodBias V c (((cfg1.win 3).blk t).view.emb (ix2 r' o'))
  rw [out_tile_apply V c t h3 r' o' ⟨1024 * (t.val / 44) + r'.val, by omega⟩
    ⟨1024 * (t.val / 4 % 11) + o'.val, by omega⟩ rfl rfl]
  congr 1
  funext a
  apply Fin.ext
  match a with
  | ⟨0, _⟩ => show 1024 * (t.val / 44) + r'.val = win1_3.index t (0 : Fin 2) * 1024 + 1 * r'.val; rw [e0]; omega
  | ⟨1, _⟩ => show 1024 * (t.val / 4 % 11) + o'.val = win1_3.index t (1 : Fin 2) * 1024 + 1 * o'.val; rw [e1]; omega

/-- An entry of the output array is in point t's block iff each coordinate is in the block's range on its axis. -/
theorem mem_out_blk (t : Fin cfg1.N) (i : S8192x11264.Idx) :
    i ∈ ((cfg1.win 3).blk t).view.set ↔ ∀ a : Fin 2, win1_3.index t a * S1024x1024.size a ≤ (i a).val
      ∧ (i a).val < win1_3.index t a * S1024x1024.size a + S1024x1024.size a := by
  show i ∈ ((View.whole main_v6).slice (win1_3.rect t)).set ↔ _
  rw [View.set_slice_whole, Rect.mem_set_unit]
  exact Iff.rfl

/-- Every entry (R, O) of the output array is in the block some last step writes back: the last step of tile
    (R / 1024, O / 1024), which is point 44 (R / 1024) + 4 (O / 1024) + 3. -/
theorem out_cover (i : S8192x11264.Idx) :
    ∃ t : Fin cfg1.N, (cfg1.win 3).flush t = true ∧ i ∈ ((cfg1.win 3).blk t).view.set := by
  have hN : cfg1.N = 352 := N_1
  have hi0 : (i 0).val < 8192 := (i 0).isLt
  have hi1 : (i 1).val < 11264 := (i 1).isLt
  obtain ⟨t, ht⟩ : ∃ t : Fin cfg1.N, t.val = 44 * ((i 0).val / 1024) + 4 * ((i 1).val / 1024) + 3 :=
    ⟨⟨44 * ((i 0).val / 1024) + 4 * ((i 1).val / 1024) + 3, by omega⟩, rfl⟩
  obtain ⟨-, -, -, -, -, -, e0, e1⟩ := grid_index t
  refine ⟨t, (flush1_3 t).mpr (by omega), ?_⟩
  rw [mem_out_blk]
  intro a
  match a with
  | ⟨0, _⟩ =>
    show win1_3.index t (0 : Fin 2) * 1024 ≤ (i 0).val ∧ (i 0).val < win1_3.index t (0 : Fin 2) * 1024 + 1024
    rw [e0]; omega
  | ⟨1, _⟩ =>
    show win1_3.index t (1 : Fin 2) * 1024 ≤ (i 1).val ∧ (i 1).val < win1_3.index t (1 : Fin 2) * 1024 + 1024
    rw [e1]; omega

/-- So after the region the output array is the product with bias. -/
theorem out_array_eq (c : Dev nD) : (dat (F := Ideal) V c).arrAt 3 cfg1.N = prodBias V c :=
  (dat V c).arrAt_eq_of_cover 3 (prodBias V c) (written_back_eq V c) out_cover

/-- After the region the output array at (r, o) is the sum over all 4096 positions p of activation (r, p) times
    weight (o, p), plus bias (0, o). -/
theorem out_array (c : Dev nD) (r : Fin 8192) (o : Fin 11264) :
    (dat (F := Ideal) V c).arrAt 3 cfg1.N (ix2 r o)
      = @HAdd.hAdd EReal EReal EReal _
          (∑ p : Fin 4096, @HMul.hMul EReal EReal EReal _ (V c main_v1 (ix2 r p)) (V c main_v3 (ix2 o p)))
          (V c main_v5 (ix2 0 o)) :=
  congrFun (out_array_eq V c) (ix2 r o)

end Cert.KernelIdeal.Matmul

end
-- ==== Proof.KernelValue.lean ====
/-
  The idealized kernel program's result is the specification's.

  Entry (b, s, o) of the result is column o < 11008 of row r = 2048 b + s of the second region's output (the slice and
  the view back to three axes). That entry is the sum over the 4096 positions p of A (r, p) * W' (o, p), plus the padded
  bias at o: A is what the first region left — the rebuilt row r of the flattened activations, which is row (b, s) of
  the activations —, W' the narrowed weights padded below row 11008, which above the padding are the weights, and the
  padded bias before entry 11008 is the bias. So the entry is the specification's: nothing is used but these readings.
-/
import proofs.«109478_j15118284882234_1_alg».proof.Proof.RegionRecords
import proofs.«109478_j15118284882234_1_alg».proof.Proof.HostGlue
import proofs.«109478_j15118284882234_1_alg».proof.Proof.HostValues
import proofs.«109478_j15118284882234_1_alg».proof.Proof.QuantValue
import proofs.«109478_j15118284882234_1_alg».proof.Proof.QuantArray
import proofs.«109478_j15118284882234_1_alg».proof.Proof.MatmulArray
import proofs.«109478_j15118284882234_1_alg».proof.Proof.Spec

noncomputable section

open scoped BigOperators

namespace Cert.KernelIdeal.Run

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ)

/-- Row 2048 b + s of what the first region left is the rebuilt row (b, s) of the activations. -/
theorem acts_row (c : Dev nD) (b : Fin 4) (s : Fin 2048) (p : Fin 4096) :
    entry1 (F := Ideal) m c main_v1 (ix2 ⟨2048 * b.val + s.val, by omega⟩ p)
      = Cert.Spec.rowRecon (fun p' => m ((c.tc : Thread nD τ).loc main_arg0) (ix3 b s p')) p := by
  rw [entry1_acts]
  refine (Quant.out_array (entry0 m) c Quant.rebuilt_apply _ p).trans ?_
  congr 1
  funext p'
  rw [entry0_acts]
  exact Host.flat_rows_apply _ b s p'

/-- The specification's result read at explicit coordinates. -/
theorem spec_at (X : (⟨3, ![4, 2048, 4096]⟩ : Shape).Idx → EReal) (W : (⟨2, ![11008, 4096]⟩ : Shape).Idx → EReal)
    (B : (⟨1, ![11008]⟩ : Shape).Idx → EReal) (b : Fin 4) (s : Fin 2048) (o : Fin 11008) :
    Cert.Spec.result X W B (ix3 b s o)
      = (∑ p : Fin 4096, Cert.Spec.rowRecon (fun p' => X (ix3 b s p')) p * W (ix2 o p)) + B (ix1 o) := rfl

/-- The result array is the specification's result of the three arguments. -/
theorem result_is_spec (c : Dev nD) :
    Gen.V9 m (outs m) c main_v8
      = Cert.Spec.result (m ((c.tc : Thread nD τ).loc main_arg0)) (m ((c.tc : Thread nD τ).loc main_arg1)) (m ((c.tc : Thread nD τ).loc main_arg2)) := by
  rw [result_value]
  funext i
  obtain ⟨b, s, o, rfl⟩ : ∃ (b : Fin 4) (s : Fin 2048) (o : Fin 11008), i = ix3 b s o := ⟨i 0, i 1, i 2, eq_ix3 i⟩
  rw [Host.sliced_apply, spec_at]
  refine (Matmul.out_array (entry1 m) c _ _).trans ?_
  congr 1
  · refine Finset.sum_congr rfl fun p _ => ?_
    congr 1
    · exact acts_row m c b s p
    · rw [entry1_weights]
      exact Host.padded_weights_apply _ _ o p
  · rw [entry1_bias]
    exact Host.padded_bias_apply _ _ o

end Cert.KernelIdeal.Run

end
-- ==== Proof.RefValue.lean ====
/-
  The reference computes the specification.

  The reference reshapes the activations to [4, 2048, 32, 128], so that entry (b, s, g, j) is entry 128 g + j of
  row (b, s): group g of that row, lane j. Each stage of its chain is then read at (b, s, g, j), or at the column
  entry (b, s, g, 0) for the per-group quantities:
    the maximum over the lanes of |.|, started from minus infinity     = absMax of the group,
    floored at eps, over 7, through the five comparisons and selections = the group's base,
    the clipped rounded quotient by the base                           = quo,
    the entry minus base times quotient                                = rem,
    the maximum over the lanes of |rem|, floored at eps, over 7        = step,
    base * quotient + clipped rounded (rem / step) * step              = recon.
  Reshaped back to [4, 2048, 4096], entry (b, s, p) is the rebuilt group p / 128 at lane p % 128, the rebuilt row
  at p. The contraction with the weights over the 4096 positions plus the bias at the output feature is the
  specification's result.
-/
import proofs.«109478_j15118284882234_1_alg».proof.Proof.Gen.ReferenceIdeal.Read
import proofs.«109478_j15118284882234_1_alg».proof.Proof.Spec
import Idealize.ShloMosaic.PureOps.Reduce
import Idealize.ShloMosaic.PureOps.Ideal.Laws
import Idealize.ShloMosaic.Lib.ValueIdx

noncomputable section

open scoped BigOperators

namespace Cert.RefValue

open Idealize.ShloMosaic Idealize.ShloMosaic.TcCoe Idealize.ShloMosaic.ValueIdx Cert.ReferenceIdeal
open Cert.ReferenceIdeal.Gen Cert.ReferenceIdeal.Read

/-- Row (b, s) of the activations, as a function of the position. -/
def row (x0 : (⟨S4x2048x4096, .f32⟩ : BufTy).Contents (Elt Ideal)) (b : Fin 4) (s : Fin 2048) : Fin 4096 → EReal :=
  fun p => x0 (ix3 b s p)

/-- Dropping the last axis of [4, 2048, 32, 128] gives [4, 2048, 32]. -/
theorem red3 : S4x2048x32x128.Reduces [3] S4x2048x32 := by decide

/-- Index (b, s, g) with lane k inserted on the dropped axis is (b, s, g, k). -/
theorem lift3 (b : Fin 4) (s : Fin 2048) (g : Fin 32) (k : Fin 128) :
    red3.lift (ix3 b s g) k = ix4 b s g k :=
  funext fun c => Fin.ext (by
    match c with
    | ⟨0, _⟩ => rfl
    | ⟨1, _⟩ => rfl
    | ⟨2, _⟩ => rfl
    | ⟨3, _⟩ => rfl)

/-- The reshaped activations at (b, s, g, j): entry 128 g + j of row (b, s). -/
theorem v0_at (x0 : (⟨S4x2048x4096, .f32⟩ : BufTy).Contents (Elt Ideal)) (b : Fin 4) (s : Fin 2048) (g : Fin 32) (j : Fin 128) :
    val_main_v0 (F := Ideal) x0 (ix4 b s g j) = Cert.Spec.grp (row x0 b s) g j := by
  rw [val_main_v0_apply]
  unfold Cert.Spec.grp row
  refine congrArg x0 (funext fun a => Fin.ext ?_)
  match a with
  | ⟨0, _⟩ => show (((b.val * 2048 + s.val) * 32 + g.val) * 128 + j.val) / 8388608 = b.val; omega
  | ⟨1, _⟩ => show (((b.val * 2048 + s.val) * 32 + g.val) * 128 + j.val) / 4096 % 2048 = s.val; omega
  | ⟨2, _⟩ => show (((b.val * 2048 + s.val) * 32 + g.val) * 128 + j.val) % 4096 = 128 * g.val + j.val; omega

/-- A maximum-reduce over the last axis, from minus infinity, at (b, s, g): the fold of max over the 128 lanes. -/
theorem reduce_at (y : FVec Ideal S4x2048x32x128 .f32) (c : FVec Ideal S_ .f32)
    (b : Fin 4) (s : Fin 2048) (g : Fin 32) :
    Host.reduce (FloatOps.maximumf (F := Ideal) (φ := .f32)) y c reducesTo_S4x2048x32x128_S4x2048x32_d3 h_S_ (ix3 b s g)
      = (Finset.univ : Finset (Fin 128)).fold max (c (Shape.Idx.first h_S_)) (fun k => y (ix4 b s g k)) := by
  refine (Host.reduce_eq_fold_single (FloatOps.maximumf (F := Ideal) (φ := .f32)) y c reducesTo_S4x2048x32x128_S4x2048x32_d3 red3 h_S_ (ix3 b s g)).trans ?_
  have e : (y ∘ red3.lift (ix3 b s g)) = fun k : Fin 128 => y (ix4 b s g k) := funext fun k => congrArg y (lift3 b s g k)
  rw [e]
  rfl

/-- A column entry (b, s, g, 0) of a [4, 2048, 32, 1] array broadcast from [4, 2048, 32] reads entry (b, s, g). -/
theorem idx3_eq (b : Fin 4) (s : Fin 2048) (g : Fin 32) (z : Fin 1) :
    idx_main_v3 (ix4 b s g z) = ix3 b s g :=
  funext fun a => Fin.ext (by
    match a with
    | ⟨0, _⟩ => rfl
    | ⟨1, _⟩ => rfl
    | ⟨2, _⟩ => rfl)

/-- Entry (b, s, g, j) of a column broadcast along the 128 lanes reads the column entry (b, s, g, 0). -/
theorem idx29_eq (b : Fin 4) (s : Fin 2048) (g : Fin 32) (j : Fin 128) :
    idx_main_v29 (ix4 b s g j) = ix4 b s g (0 : Fin 1) :=
  funext fun a => Fin.ext (by
    match a with
    | ⟨0, _⟩ => rfl
    | ⟨1, _⟩ => rfl
    | ⟨2, _⟩ => rfl
    | ⟨3, _⟩ => rfl)

/-- The group maximum of absolute values at (b, s, g). -/
theorem v2_at (x0 : (⟨S4x2048x4096, .f32⟩ : BufTy).Contents (Elt Ideal)) (b : Fin 4) (s : Fin 2048) (g : Fin 32) :
    val_main_v2 (F := Ideal) x0 (ix3 b s g) = Cert.Spec.absMax (Cert.Spec.grp (row x0 b s) g) := by
  unfold val_main_v2
  refine (reduce_at _ _ b s g).trans ?_
  unfold Cert.Spec.absMax
  rw [val_main_cst_apply]
  refine congrArg (fun f => (Finset.univ : Finset (Fin 128)).fold max _ f) (funext fun k => ?_)
  rw [val_main_v1_apply, v0_at]
  rfl

/-- The floored group maximum over seven, at the column entry (b, s, g, 0). -/
theorem v7_at (x0 : (⟨S4x2048x4096, .f32⟩ : BufTy).Contents (Elt Ideal)) (b : Fin 4) (s : Fin 2048) (g : Fin 32) (z : Fin 1) :
    val_main_v7 (F := Ideal) x0 (ix4 b s g z)
      = Ideal.div (max (Cert.Spec.absMax (Cert.Spec.grp (row x0 b s) g)) (Cert.Spec.lit 0x322BCC77#32)) (Cert.Spec.lit 0x40E00000#32) := by
  rw [val_main_v7_apply, val_main_v5_apply, val_main_v3_apply, idx3_eq, v2_at, val_main_v4_apply, val_main_cst_0_apply,
    val_main_v6_apply, val_main_cst_1_apply]
  rfl

/-- The select chain at (b, s, g): the group's base. -/
theorem v28_at (x0 : (⟨S4x2048x4096, .f32⟩ : BufTy).Contents (Elt Ideal)) (b : Fin 4) (s : Fin 2048) (g : Fin 32) (z : Fin 1) :
    val_main_v28 (F := Ideal) x0 (ix4 b s g z) = Cert.Spec.base (Cert.Spec.grp (row x0 b s) g) := by
  rw [val_main_v28_apply, val_main_v26_apply, val_main_v25_apply, val_main_cst_11_apply, val_main_v27_apply, val_main_cst_12_apply,
    val_main_v24_apply, val_main_v22_apply, val_main_v21_apply, val_main_cst_9_apply, val_main_v23_apply, val_main_cst_10_apply,
    val_main_v20_apply, val_main_v18_apply, val_main_v17_apply, val_main_cst_7_apply, val_main_v19_apply, val_main_cst_8_apply,
    val_main_v16_apply, val_main_v14_apply, val_main_v13_apply, val_main_cst_5_apply, val_main_v15_apply, val_main_cst_6_apply,
    val_main_v12_apply, val_main_v10_apply, val_main_v9_apply, val_main_cst_3_apply, val_main_v11_apply, val_main_cst_4_apply,
    val_main_v8_apply, val_main_cst_2_apply, v7_at]
  rfl

/-! The other broadcasts along the lanes read the same column entry. -/

theorem idx33_eq (b : Fin 4) (s : Fin 2048) (g : Fin 32) (j : Fin 128) :
    idx_main_v33 (ix4 b s g j) = ix4 b s g (0 : Fin 1) :=
  funext fun a => Fin.ext (by
    match a with
    | ⟨0, _⟩ => rfl
    | ⟨1, _⟩ => rfl
    | ⟨2, _⟩ => rfl
    | ⟨3, _⟩ => rfl)

theorem idx43_eq (b : Fin 4) (s : Fin 2048) (g : Fin 32) (j : Fin 128) :
    idx_main_v43 (ix4 b s g j) = ix4 b s g (0 : Fin 1) :=
  funext fun a => Fin.ext (by
    match a with
    | ⟨0, _⟩ => rfl
    | ⟨1, _⟩ => rfl
    | ⟨2, _⟩ => rfl
    | ⟨3, _⟩ => rfl)

theorem idx47_eq (b : Fin 4) (s : Fin 2048) (g : Fin 32) (j : Fin 128) :
    idx_main_v47 (ix4 b s g j) = ix4 b s g (0 : Fin 1) :=
  funext fun a => Fin.ext (by
    match a with
    | ⟨0, _⟩ => rfl
    | ⟨1, _⟩ => rfl
    | ⟨2, _⟩ => rfl
    | ⟨3, _⟩ => rfl)

theorem idx49_eq (b : Fin 4) (s : Fin 2048) (g : Fin 32) (j : Fin 128) :
    idx_main_v49 (ix4 b s g j) = ix4 b s g (0 : Fin 1) :=
  funext fun a => Fin.ext (by
    match a with
    | ⟨0, _⟩ => rfl
    | ⟨1, _⟩ => rfl
    | ⟨2, _⟩ => rfl
    | ⟨3, _⟩ => rfl)

theorem idx38_eq (b : Fin 4) (s : Fin 2048) (g : Fin 32) (z : Fin 1) :
    idx_main_v38 (ix4 b s g z) = ix3 b s g :=
  funext fun a => Fin.ext (by
    match a with
    | ⟨0, _⟩ => rfl
    | ⟨1, _⟩ => rfl
    | ⟨2, _⟩ => rfl)

/-- The clipped rounded quotient at (b, s, g, j). -/
theorem v32_at (x0 : (⟨S4x2048x4096, .f32⟩ : BufTy).Contents (Elt Ideal)) (b : Fin 4) (s : Fin 2048) (g : Fin 32) (j : Fin 128) :
    val_main_v32 (F := Ideal) x0 (ix4 b s g j) = Cert.Spec.quo (Cert.Spec.grp (row x0 b s) g) j := by
  rw [val_main_v32_apply, val_main_call6_v4_apply, val_main_call6_v3_apply, val_main_cst_14_apply,
    val_main_call6_v2_apply, val_main_call6_v1_apply, val_main_call6_v0_apply, val_main_cst_13_apply,
    val_main_v31_apply, val_main_v30_apply, v0_at, val_main_v29_apply, idx29_eq, v28_at]
  rfl

/-- The remainder at (b, s, g, j). -/
theorem v35_at (x0 : (⟨S4x2048x4096, .f32⟩ : BufTy).Contents (Elt Ideal)) (b : Fin 4) (s : Fin 2048) (g : Fin 32) (j : Fin 128) :
    val_main_v35 (F := Ideal) x0 (ix4 b s g j) = Cert.Spec.rem (Cert.Spec.grp (row x0 b s) g) j := by
  rw [val_main_v35_apply, v0_at, val_main_v34_apply, val_main_v33_apply, idx33_eq, v28_at, v32_at]
  rfl

/-- The group maximum of the remainders' absolute values at (b, s, g). -/
theorem v37_at (x0 : (⟨S4x2048x4096, .f32⟩ : BufTy).Contents (Elt Ideal)) (b : Fin 4) (s : Fin 2048) (g : Fin 32) :
    val_main_v37 (F := Ideal) x0 (ix3 b s g) = Cert.Spec.absMax (Cert.Spec.rem (Cert.Spec.grp (row x0 b s) g)) := by
  unfold val_main_v37
  refine (reduce_at _ _ b s g).trans ?_
  unfold Cert.Spec.absMax
  rw [val_main_cst_15_apply]
  refine congrArg (fun f => (Finset.univ : Finset (Fin 128)).fold max _ f) (funext fun k => ?_)
  rw [val_main_v36_apply, v35_at]
  rfl

/-- The remainder's step, at the column entry (b, s, g, 0). -/
theorem v42_at (x0 : (⟨S4x2048x4096, .f32⟩ : BufTy).Contents (Elt Ideal)) (b : Fin 4) (s : Fin 2048) (g : Fin 32) (z : Fin 1) :
    val_main_v42 (F := Ideal) x0 (ix4 b s g z) = Cert.Spec.step (Cert.Spec.grp (row x0 b s) g) := by
  rw [val_main_v42_apply, val_main_v40_apply, val_main_v38_apply, idx38_eq, v37_at, val_main_v39_apply, val_main_cst_16_apply,
    val_main_v41_apply, val_main_cst_17_apply]
  rfl

/-- The rebuilt value at (b, s, g, j). -/
theorem v51_at (x0 : (⟨S4x2048x4096, .f32⟩ : BufTy).Contents (Elt Ideal)) (b : Fin 4) (s : Fin 2048) (g : Fin 32) (j : Fin 128) :
    val_main_v51 (F := Ideal) x0 (ix4 b s g j) = Cert.Spec.recon (Cert.Spec.grp (row x0 b s) g) j := by
  rw [val_main_v51_apply, val_main_v50_apply, val_main_v49_apply, idx49_eq, v28_at, v32_at,
    val_main_v48_apply, val_main_v46_apply, val_main_call8_v4_apply, val_main_call8_v3_apply, val_main_cst_19_apply,
    val_main_call8_v2_apply, val_main_call8_v1_apply, val_main_call8_v0_apply, val_main_cst_18_apply,
    val_main_v45_apply, val_main_v44_apply, v35_at, val_main_v43_apply, idx43_eq, v42_at,
    val_main_v47_apply, idx47_eq, v42_at]
  rfl

/-- The rebuilt array reshaped back, at (b, s, p): group p / 128, lane p % 128 of the rebuilt row. -/
theorem v52_at (x0 : (⟨S4x2048x4096, .f32⟩ : BufTy).Contents (Elt Ideal)) (b : Fin 4) (s : Fin 2048) (p : Fin 4096) :
    val_main_v52 (F := Ideal) x0 (ix3 b s p) = Cert.Spec.rowRecon (row x0 b s) p := by
  have e : idx_main_v52 (ix3 b s p) = ix4 b s (⟨p.val / 128, by omega⟩ : Fin 32) (⟨p.val % 128, by omega⟩ : Fin 128) :=
    funext fun a => Fin.ext (by
      match a with
      | ⟨0, _⟩ => show ((b.val * 2048 + s.val) * 4096 + p.val) / 8388608 = b.val; omega
      | ⟨1, _⟩ => show ((b.val * 2048 + s.val) * 4096 + p.val) / 4096 % 2048 = s.val; omega
      | ⟨2, _⟩ => show ((b.val * 2048 + s.val) * 4096 + p.val) / 128 % 32 = p.val / 128; omega
      | ⟨3, _⟩ => show ((b.val * 2048 + s.val) * 4096 + p.val) % 128 = p.val % 128; omega)
  rw [val_main_v52_apply, e, v51_at]
  rfl

/-- The contraction reads the rebuilt row (b, s) at position k … -/
theorem lidx_eq (b : Fin 4) (s : Fin 2048) (o : Fin 11008) (k : Fin 4096) :
    lidx_main_v53 (ix3 b s o) k = ix3 b s k :=
  funext fun a => Fin.ext (by
    match a with
    | ⟨0, _⟩ => rfl
    | ⟨1, _⟩ => rfl
    | ⟨2, _⟩ => rfl)

/-- … against row o of the weights at position k. -/
theorem ridx_eq (b : Fin 4) (s : Fin 2048) (o : Fin 11008) (k : Fin 4096) :
    ridx_main_v53 (ix3 b s o) k = ix2 o k :=
  funext fun a => Fin.ext (by
    match a with
    | ⟨0, _⟩ => rfl
    | ⟨1, _⟩ => rfl)

/-- The bias broadcast to [1, 1, 11008] and then to [4, 2048, 11008] reads the bias at the output feature o. -/
theorem bias_idx_eq (b : Fin 4) (s : Fin 2048) (o : Fin 11008) :
    idx_main_v54 (idx_main_v55 (ix3 b s o)) = ix1 o :=
  funext fun a => Fin.ext (by
    match a with
    | ⟨0, _⟩ => rfl)

/-- The reference's last stage is the specification's result of its three arguments. -/
theorem v56_eq (x0 : (⟨S4x2048x4096, .f32⟩ : BufTy).Contents (Elt Ideal)) (x1 : (⟨S11008x4096, .f32⟩ : BufTy).Contents (Elt Ideal))
    (x2 : (⟨S11008, .f32⟩ : BufTy).Contents (Elt Ideal)) :
    val_main_v56 (F := Ideal) x0 x1 x2 = Cert.Spec.result x0 x1 x2 := by
  funext i
  obtain ⟨b, s, o, rfl⟩ : ∃ (b : Fin 4) (s : Fin 2048) (o : Fin 11008), i = ix3 b s o := ⟨i 0, i 1, i 2, eq_ix3 i⟩
  rw [val_main_v56_apply, val_main_v53_apply, val_main_v55_apply, val_main_v54_apply, bias_idx_eq]
  unfold Cert.Spec.result
  refine congrArg₂ (· + ·) (Finset.sum_congr rfl fun p _ => ?_) rfl
  rw [lidx_eq, ridx_eq, v52_at]
  rfl

/-- The reference's result is the specification's result of its three arguments. -/
theorem ref_result (m : (ℓ : Loc nD τ sig) → Buf (Elt Ideal) ℓ) (c : Dev nD) :
    Cert.ReferenceIdeal.Value.res_out0 (F := Ideal) m c
      = Cert.Spec.result (m ((c.tc : Thread nD τ).loc main_arg0)) (m ((c.tc : Thread nD τ).loc main_arg1)) (m ((c.tc : Thread nD τ).loc main_arg2)) :=
  (val_main_v56_eq (F := Ideal) m c).trans (v56_eq _ _ _)

end Cert.RefValue

end
-- ==== Proof.lean ====
/-
  The certificate of the quotient-remainder linear layer: x is fake-quantised group by group (32 groups of 128 per row:
  a power-of-two base from the group's largest magnitude, a clipped rounded quotient, a remainder quantised on its own
  step) and the rebuilt activations are multiplied by the transposed weights and shifted by the bias.

  The kernel program does this in two kernel regions — the first rebuilds the activations 256 rows at a time, the second
  accumulates 1024 x 1024 output tiles over four steps along the 4096 contracted positions against the weights padded to
  a multiple of the tile, adds the bias at the last step, and the host slices the padding off —; the reference is one
  jnp expression ending in an einsum. Over the extended reals both compute, entry by entry, the specification's
  `Cert.Spec.result`: the groupwise operations are the same scalar operations on the same 128 entries, and the sum over
  4096 positions is the four block sums added in order, which uses only that addition is commutative and associative
  (so the finiteness of the inputs is never needed).

  The three frames: each kernel program runs by its two regions' records under the generated conditional frame (the same
  text at the word-level program and at its idealization, which print alike: the ideal pass rewrote nothing, so
  `preserves` is `True`); the reference runs by its generated run.
-/
import proofs.«109478_j15118284882234_1_alg».proof.Defs
import proofs.«109478_j15118284882234_1_alg».proof.Proof.Gen.Kernel
import proofs.«109478_j15118284882234_1_alg».proof.Proof.Gen.KernelIdeal
import proofs.«109478_j15118284882234_1_alg».proof.Proof.Gen.ReferenceIdeal
import proofs.«109478_j15118284882234_1_alg».proof.Proof.Gen.ReferenceIdeal.Read
import proofs.«109478_j15118284882234_1_alg».proof.Proof.Gen.Pre_finite_inputs
import proofs.«109478_j15118284882234_1_alg».proof.Proof.KernelRegionRecords
import proofs.«109478_j15118284882234_1_alg».proof.Proof.RegionRecords
import proofs.«109478_j15118284882234_1_alg».proof.Proof.RunNamed
import proofs.«109478_j15118284882234_1_alg».proof.Proof.KernelValue
import proofs.«109478_j15118284882234_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : @Cert.frame_Kernel Cert.Kernel.Gen.facts Cert.Pre_finite_inputs.Gen.facts :=
  fun m ρ _ => Cert.Kernel.Run.frame (F := Bits) m ρ

theorem frame_kernel_ideal : @Cert.frame_KernelIdeal Cert.KernelIdeal.Gen.facts Cert.Pre_finite_inputs.Gen.facts :=
  fun m ρ _ => Cert.KernelIdeal.Run.frame (F := Ideal) m ρ

theorem frame_reference : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- From memories agreeing on the three arguments both idealized programs end with the specification's result of the
    kernel's arguments: the kernel by its named run and the entry-wise reading of its two regions, the reference by its
    generated run read stage by stage. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.Spec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.Run.result_is_spec m c), (h c).2⟩)
      (Cert.KernelIdeal.Run.run_named (F := Ideal) m ρ)
  · refine (θ_run Cert.ReferenceIdeal.defs _ _).mono (fun _ h c => ⟨(h c).1.trans ?_, (h c).2⟩)
      (Cert.ReferenceIdeal.Value.run (F := Ideal) m' ρ')
    refine (Cert.RefValue.ref_result m' c).trans ?_
    rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
